-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128x64 .f32) (main_arg6 : FVec F S64 .f32) (main_arg7 : FVec F S128x64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x64 .f32) (main_arg6 : FVec F S64 .f32) (main_arg7 : FVec F S128x64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S1600000x128 : Shape := ⟨2, ![1600000, 128]⟩
abbrev S256x128 : Shape := ⟨2, ![256, 128]⟩
abbrev S4000x128 : Shape := ⟨2, ![4000, 128]⟩
abbrev S4000x1 : Shape := ⟨2, ![4000, 1]⟩
abbrev S4000x256 : Shape := ⟨2, ![4000, 256]⟩
abbrev S1x128 : Shape := ⟨2, ![1, 128]⟩
abbrev S256x64 : Shape := ⟨2, ![256, 64]⟩
abbrev S100000x64 : Shape := ⟨2, ![100000, 64]⟩
abbrev S4000x64 : Shape := ⟨2, ![4000, 64]⟩
abbrev S1x64 : Shape := ⟨2, ![1, 64]⟩

abbrev nBuf : Space → Nat
  | .hbm => 56
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000x1, .f32⟩
  | .hbm, ⟨14, _⟩ => ⟨S_, .f32⟩
  | .hbm, ⟨15, _⟩ => ⟨S100000x1, .f32⟩
  | .hbm, ⟨16, _⟩ => ⟨S1600000x1, .i32⟩
  | .hbm, ⟨17, _⟩ => ⟨S100000x1, .f32⟩
  | .hbm, ⟨18, _⟩ => ⟨S_, .f32⟩
  | .hbm, ⟨19, _⟩ => ⟨S100000x1, .f32⟩
  | .hbm, ⟨20, _⟩ => ⟨S100000x1, .f32⟩
  | .hbm, ⟨21, _⟩ => ⟨S_, .f32⟩
  | .hbm, ⟨22, _⟩ => ⟨S100000x1, .f32⟩
  | .hbm, ⟨23, _⟩ => ⟨S100000x1, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x128, .f32⟩
  | .hbm, ⟨33, _⟩ => ⟨S_, .f32⟩
  | .hbm, ⟨34, _⟩ => ⟨S100000x128, .f32⟩
  | .hbm, ⟨35, _⟩ => ⟨S1600000x1, .i32⟩
  | .hbm, ⟨36, _⟩ => ⟨S100000x128, .f32⟩
  | .hbm, ⟨37, _⟩ => ⟨S256x128, .f32⟩
  | .hbm, ⟨38, _⟩ => ⟨S256x128, .bf16⟩
  | .hbm, ⟨39, _⟩ => ⟨S100000x128, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x128, .f32⟩
  | .hbm, ⟨49, _⟩ => ⟨S_, .f32⟩
  | .hbm, ⟨50, _⟩ => ⟨S100000x128, .f32⟩
  | .hbm, ⟨51, _⟩ => ⟨S1600000x1, .i32⟩
  | .hbm, ⟨52, _⟩ => ⟨S100000x128, .f32⟩
  | .hbm, ⟨53, _⟩ => ⟨S256x64, .f32⟩
  | .hbm, ⟨54, _⟩ => ⟨S256x64, .bf16⟩
  | .hbm, ⟨55, _⟩ => ⟨S100000x64, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x1, .f32⟩
  | .local _ .vmem, ⟨5, _⟩ => ⟨S4000x1, .f32⟩
  | .local _ .vmem, ⟨6, _⟩ => ⟨S256x128, .bf16⟩
  | .local _ .vmem, ⟨7, _⟩ => ⟨S128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S4000x1, .f32⟩
  | .local _ .vmem, ⟨15, _⟩ => ⟨S4000x1, .f32⟩
  | .local _ .vmem, ⟨16, _⟩ => ⟨S256x64, .bf16⟩
  | .local _ .vmem, ⟨17, _⟩ => ⟨S64, .f32⟩
  | .local _ .vmem, ⟨18, _⟩ => ⟨S4000x64, .f32⟩
  | .local _ .vmem, ⟨19, _⟩ => ⟨S4000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_7 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000x1 : S_.BroadcastsInDim S1600000x1 (![] : Fin 0 → Fin S1600000x1.rank)
  bcast_S_S100000x1 : S_.BroadcastsInDim S100000x1 (![] : Fin 0 → Fin S100000x1.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S_S100000x128 : S_.BroadcastsInDim S100000x128 (![] : Fin 0 → Fin S100000x128.rank)
  concatenates_S128x128_S128x128_S256x128_d0 : Shape.Concatenates [S128x128, S128x128] S256x128 0
  bitsLt_bf16_f32 : FTy.bits .bf16 < FTy.bits .f32
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  concatenates_S4000x128_S4000x128_S4000x256_d1 : Shape.Concatenates [S4000x128, S4000x128] S4000x256 1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  concatenates_S128x64_S128x64_S256x64_d0 : Shape.Concatenates [S128x64, S128x64] S256x64 0
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S64_S64_0 : ∀ a, (![0] : Fin 1 → Nat) a + S64.size a ≤ S64.size a
  h_S64 : 0 < S64.numel
  shapeCasts_S64_S1x64 : S64.ShapeCasts S1x64
  broadcasts_S1x64_S4000x64 : S1x64.Broadcasts S4000x64
  inb_S4000x64_S4000x64_0_0 : ∀ a, (![0, 0] : Fin 2 → Nat) a + S4000x64.size a ≤ S4000x64.size a
  h_S4000x64 : 0 < S4000x64.numel
  scatter_S100000x1_S1600000x1_S1600000x1_1_0_0_1_wf : ScatterDims.WF S100000x1 S1600000x1 S1600000x1 [1] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x256_S256x128_S4000x128_1_0_0_1_n_n_wf : DotDims.WF S4000x256 S256x128 S4000x128 [1] [0] [0] [1] [] []
  dot_S4000x256_S256x64_S4000x64_1_0_0_1_n_n_wf : DotDims.WF S4000x256 S256x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .bf16 = 32 ∨ (Rect.block (s := S256x128) S256x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S100000x128.size a
  hwx0_5 : ∀ i : grid0.Coords, EltTy.bits .f32 = 32 ∨ (Rect.block (s := S100000x128) S4000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x64.size a ≤ S256x64.size a
  hwx1_3 : ∀ i : grid1.Coords, EltTy.bits .bf16 = 32 ∨ (Rect.block (s := S256x64) S256x64.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x64.size a ≤ S100000x64.size a
  hwx1_5 : ∀ i : grid1.Coords, EltTy.bits .f32 = 32 ∨ (Rect.block (s := S100000x64) S4000x64.size (cc1_transform_5 i) (hinb1_5 i)).WholeWords (EltTy.packing .f32)

variable [Facts₀]

def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def dot_S4000x256_S256x64_S4000x64_1_0_0_1_n_n : DotDims S4000x256 S256x64 S4000x64 where
  lhsContracting := [1]
  rhsContracting := [0]
  lhsNonContracting := [0]
  rhsNonContracting := [1]
  lhsBatch := []
  rhsBatch := []
  wf := dot_S4000x256_S256x64_S4000x64_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S4000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v24) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v36) S256x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S4000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x64 : Shape := ⟨2, ![100000, 64]⟩
abbrev S1x64 : Shape := ⟨2, ![1, 64]⟩

abbrev nBuf : Space → Nat
  | .hbm => 75
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000x1, .f32⟩
  | .hbm, ⟨27, _⟩ => ⟨S_, .f32⟩
  | .hbm, ⟨28, _⟩ => ⟨S100000x1, .f32⟩
  | .hbm, ⟨29, _⟩ => ⟨S1600000x1, .i32⟩
  | .hbm, ⟨30, _⟩ => ⟨S100000x1, .f32⟩
  | .hbm, ⟨31, _⟩ => ⟨S_, .f32⟩
  | .hbm, ⟨32, _⟩ => ⟨S100000x1, .f32⟩
  | .hbm, ⟨33, _⟩ => ⟨S100000x1, .f32⟩
  | .hbm, ⟨34, _⟩ => ⟨S100000x128, .f32⟩
  | .hbm, ⟨35, _⟩ => ⟨S100000x128, .f32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S_, .f32⟩
  | .hbm, ⟨43, _⟩ => ⟨S100000x128, .f32⟩
  | .hbm, ⟨44, _⟩ => ⟨S100000x128, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x128, .f32⟩
  | .hbm, ⟨54, _⟩ => ⟨S_, .f32⟩
  | .hbm, ⟨55, _⟩ => ⟨S100000x128, .f32⟩
  | .hbm, ⟨56, _⟩ => ⟨S1600000x1, .i32⟩
  | .hbm, ⟨57, _⟩ => ⟨S100000x128, .f32⟩
  | .hbm, ⟨58, _⟩ => ⟨S_, .f32⟩
  | .hbm, ⟨59, _⟩ => ⟨S1600000x1, .f32⟩
  | .hbm, ⟨60, _⟩ => ⟨S_, .f32⟩
  | .hbm, ⟨61, _⟩ => ⟨S100000x1, .f32⟩
  | .hbm, ⟨62, _⟩ => ⟨S1600000x1, .i32⟩
  | .hbm, ⟨63, _⟩ => ⟨S100000x1, .f32⟩
  | .hbm, ⟨64, _⟩ => ⟨S_, .f32⟩
  | .hbm, ⟨65, _⟩ => ⟨S100000x1, .f32⟩
  | .hbm, ⟨66, _⟩ => ⟨S100000x1, .f32⟩
  | .hbm, ⟨67, _⟩ => ⟨S100000x128, .f32⟩
  | .hbm, ⟨68, _⟩ => ⟨S100000x128, .f32⟩
  | .hbm, ⟨69, _⟩ => ⟨S100000x64, .f32⟩
  | .hbm, ⟨70, _⟩ => ⟨S1x64, .f32⟩
  | .hbm, ⟨71, _⟩ => ⟨S100000x64, .f32⟩
  | .hbm, ⟨72, _⟩ => ⟨S100000x64, .f32⟩
  | .hbm, ⟨73, _⟩ => ⟨S100000x64, .f32⟩
  | .hbm, ⟨74, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_call0_cst : Ref sig .tc := ⟨.hbm, 42, rfl⟩
abbrev main_call0_v0 : Ref sig .tc := ⟨.hbm, 43, rfl⟩
abbrev main_v28 : Ref sig .tc := ⟨.hbm, 44, rfl⟩
abbrev main_c_4 : Ref sig .tc := ⟨.hbm, 45, rfl⟩
abbrev main_v29 : Ref sig .tc := ⟨.hbm, 46, rfl⟩
abbrev main_v30 : Ref sig .tc := ⟨.hbm, 47, rfl⟩
abbrev main_c_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_6 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000x1_S1600000x1_S1600000x1_1_0_0_1_wf : ScatterDims.WF S100000x1 S1600000x1 S1600000x1 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.Spec.lean ====
/-
  The two graph-convolution layers as functions of whole arrays, over the extended reals.

  A layer takes node features `Y` (100000 nodes, 128 features each) and the edge list `E` (1600000 edges, a source
  row and a target row of signed index words). It sums, into each target node, the feature rows of the sources of
  its incoming edges (`neighbourSum`), divides by the node's in-degree or by 1 when it has none (`degree1`), and
  returns  mean · W_l + b + Y · W_r.  The first layer clamps the result below at 0; the second does not.

  Two spellings of one layer are stated here. The fused spelling multiplies the sum by the RECIPROCAL of the
  degree, lays the mean and the node's own features side by side as one row of 256 entries, and takes ONE product
  with W_l stacked over W_r. The plain spelling divides, takes the two products of 128 terms separately, and adds
  the bias between them. `Algebra` proves the two equal; nothing here does.
-/
import proofs.«424404_j19155554140466_3_alg».proof.KernelIdeal
import proofs.«424404_j19155554140466_3_alg».proof.Proof.Gen.KernelIdeal
import Idealize.ShloMosaic.Lib.ValueIdx
import Idealize.ShloMosaic.PureOps.Ideal

noncomputable section

namespace Cert.Sage

open Idealize.ShloMosaic Idealize.ShloMosaic.ValueIdx Cert.KernelIdeal Cert.KernelIdeal.Gen

/-! ## The edge list's two rows, as index columns -/

/-- The source row of the edge list: one signed word per edge. -/
def srcWords (E : IVec S2x1600000 32) : IVec S1600000 32 :=
  shapeCast S1600000 (extractStridedSlice S1x1600000 ![0, 0] E slices_S2x1600000_S1x1600000_0_0) shapeCasts_S1x1600000_S1600000

/-- The target row of the edge list. -/
def dstWords (E : IVec S2x1600000 32) : IVec S1600000 32 :=
  shapeCast S1600000 (extractStridedSlice S1x1600000 ![1, 0] E slices_S2x1600000_S1x1600000_1_0) shapeCasts_S1x1600000_S1600000

/-- The source words with a negative word moved up by the number of nodes, as a column of index vectors. -/
def srcCol (E : IVec S2x1600000 32) : IVec S1600000x1 32 :=
  broadcastInDim S1600000x1 ![0] bcast_S1600000_S1600000x1_0
    (select (cmpi .slt (srcWords E) (broadcastInDim S1600000 ![] bcast_S_S1600000 (constantI S_ 32 0#32)))
      (addi (srcWords E) (broadcastInDim S1600000 ![] bcast_S_S1600000 (constantI S_ 32 100000#32)))
      (srcWords E))

/-- The target words as a column of index vectors. -/
def dstCol (E : IVec S2x1600000 32) : IVec S1600000x1 32 :=
  broadcastInDim S1600000x1 ![0] bcast_S1600000_S1600000x1_0 (dstWords E)

/-! ## Aggregation along the edges -/

/-- Into each target node, the sum of the feature rows of its incoming edges' sources: a row gather by the source
    column, then a scatter-add by the target column into zeros. -/
def neighbourSum (Y : FVec Ideal S100000x128 .f32) (E : IVec S2x1600000 32) : FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32))
    (dstCol E)
    (Host.gather gather_S100000x128_S1600000x1_S1600000x128_1_0_n_n_0_1_1128 Y (srcCol E))

/-- Each node's in-degree (a scatter-add of ones by the target column), or 1 where that is smaller. -/
def degree1 (E : IVec S2x1600000 32) : FVec Ideal S100000x1 .f32 :=
  maximumf (F := Ideal)
    (Host.scatterAdd (F := Ideal) scatter_S100000x1_S1600000x1_S1600000x1_1_0_0_1
      (broadcastInDim S100000x1 ![] bcast_S_S100000x1 (constant (F := Ideal) S_ .f32 0x00000000#32))
      (dstCol E)
      (broadcastInDim S1600000x1 ![] bcast_S_S1600000x1 (constant (F := Ideal) S_ .f32 0x3F800000#32)))
    (broadcastInDim S100000x1 ![] bcast_S_S100000x1 (constant (F := Ideal) S_ .f32 0x3F800000#32))

/-- The reciprocal of `degree1`, node by node: 1 divided by it. -/
def invDegree (E : IVec S2x1600000 32) : FVec Ideal S100000x1 .f32 :=
  Host.divf (F := Ideal) (broadcastInDim S100000x1 ![] bcast_S_S100000x1 (constant (F := Ideal) S_ .f32 0x3F800000#32)) (degree1 E)

/-- The first layer's two weight matrices, one over the other (256 rows). -/
def stacked1 (Wl Wr : FVec Ideal S128x128 .f32) : FVec Ideal S256x128 .bf16 :=
  truncf (F := Ideal) .bf16 (concatenate S256x128 0 [⟨S128x128, Wl⟩, ⟨S128x128, Wr⟩] concatenates_S128x128_S128x128_S256x128_d0) bitsLt_bf16_f32

/-- The second layer's two weight matrices, one over the other (256 rows). -/
def stacked2 (Wl Wr : FVec Ideal S128x64 .f32) : FVec Ideal S256x64 .bf16 :=
  truncf (F := Ideal) .bf16 (concatenate S256x64 0 [⟨S128x64, Wl⟩, ⟨S128x64, Wr⟩] concatenates_S128x64_S128x64_S256x64_d0) bitsLt_bf16_f32

/-! ## A layer, fused spelling -/

/-- Entry `k` of node `r`'s fused row: for `k < 128` the aggregate's entry `k` times the node's scale `I r`; from 128 on
    the node's own feature `k - 128`. -/
def fusedRow (Y A : FVec Ideal S100000x128 .f32) (I : FVec Ideal S100000x1 .f32) (r : Fin 100000) (k : Fin 256) : EReal :=
  if h : k.val < 128 then A (ix2 r (⟨k.val, h⟩ : Fin 128)) * I (ix2 r (0 : Fin 1))
  else Y (ix2 r (⟨k.val - 128, by have := k.isLt; omega⟩ : Fin 128))

/-- The first layer, fused: the fused row against the stacked matrix's column, plus the bias, clamped below at 0. -/
def fused1 (Y A : FVec Ideal S100000x128 .f32) (I : FVec Ideal S100000x1 .f32) (Wc : FVec Ideal S256x128 .bf16)
    (b : FVec Ideal S128 .f32) : FVec Ideal S100000x128 .f32 := fun i =>
  max ((∑ k : Fin 256, fusedRow Y A I (i 0) k * Wc (ix2 k (i 1))) + b (ix1 (i 1))) 0

/-- The second layer, fused: the same without the clamp, into 64 columns. -/
def fused2 (Y A : FVec Ideal S100000x128 .f32) (I : FVec Ideal S100000x1 .f32) (Wc : FVec Ideal S256x64 .bf16)
    (b : FVec Ideal S64 .f32) : FVec Ideal S100000x64 .f32 := fun i =>
  (∑ k : Fin 256, fusedRow Y A I (i 0) k * Wc (ix2 k (i 1))) + b (ix1 (i 1))

/-! ## A layer, plain spelling -/

/-- Node `r`'s mean-aggregated feature `k`: the neighbour sum divided by `degree1`. -/
def meanAt (Y : FVec Ideal S100000x128 .f32) (E : IVec S2x1600000 32) (r : Fin 100000) (k : Fin 128) : EReal :=
  Ideal.div (neighbourSum Y E (ix2 r k)) (degree1 E (ix2 r (0 : Fin 1)))

/-- The first layer, plain: mean · W_l + b + Y · W_r, clamped below at 0. -/
def conv1 (Y : FVec Ideal S100000x128 .f32) (E : IVec S2x1600000 32) (Wl : FVec Ideal S128x128 .f32)
    (b : FVec Ideal S128 .f32) (Wr : FVec Ideal S128x128 .f32) : FVec Ideal S100000x128 .f32 := fun i =>
  max (((∑ k : Fin 128, meanAt Y E (i 0) k * Wl (ix2 k (i 1))) + b (ix1 (i 1))) + ∑ k : Fin 128, Y (ix2 (i 0) k) * Wr (ix2 k (i 1))) 0

/-- The second layer, plain: mean · W_l + b + Y · W_r, into 64 columns. -/
def conv2 (Y : FVec Ideal S100000x128 .f32) (E : IVec S2x1600000 32) (Wl : FVec Ideal S128x64 .f32)
    (b : FVec Ideal S64 .f32) (Wr : FVec Ideal S128x64 .f32) : FVec Ideal S100000x64 .f32 := fun i =>
  ((∑ k : Fin 128, meanAt Y E (i 0) k * Wl (ix2 k (i 1))) + b (ix1 (i 1))) + ∑ k : Fin 128, Y (ix2 (i 0) k) * Wr (ix2 k (i 1))

end Cert.Sage

end
-- ==== Proof.Layer1.lean ====
/-
  The first pallas_call's output array, whole: 25 blocks of 4000 nodes, each the first layer (fused spelling) of
  the blocks of its five operands, make up the first layer of the whole arrays.
-/
import proofs.«424404_j19155554140466_3_alg».proof.Proof.Gen.KernelIdeal.Frame
import proofs.«424404_j19155554140466_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Layer1

open Idealize.ShloMosaic Idealize.ShloMosaic.TcCoe Idealize.ShloMosaic.ValueIdx Idealize.SL.Sem Cert.KernelIdeal Cert.KernelIdeal.Gen Cert.Sage

variable (V : (c : Dev nD) → (b : Ref sig .tc) → Buf (Elt Ideal) ((c : Thread nD τ).loc b))

/-! ## The 256-term product at an entry -/

/-- The left operand is read in the output's row. -/
theorem lhs_row (i : S4000x128.Idx) (q : dot_S4000x256_S256x128_S4000x128_1_0_0_1_n_n.contr.Idx) :
    (dot_S4000x256_S256x128_S4000x128_1_0_0_1_n_n.lhsIdx i q 0).val = (i 0).val := by
  unfold DotDims.lhsIdx
  rw [dif_neg (show ¬(0 : Fin S4000x256.rank) ∈ dot_S4000x256_S256x128_S4000x128_1_0_0_1_n_n.lhsBatch by decide), dif_pos (show (0 : Fin S4000x256.rank) ∈ dot_S4000x256_S256x128_S4000x128_1_0_0_1_n_n.lhsNonContracting by decide)]
  rfl
/-- The left operand is read in the column the summation index names. -/
theorem lhs_col (i : S4000x128.Idx) (q : dot_S4000x256_S256x128_S4000x128_1_0_0_1_n_n.contr.Idx) :
    (dot_S4000x256_S256x128_S4000x128_1_0_0_1_n_n.lhsIdx i q 1).val = (q ⟨0, by decide⟩).val :=
  dot_S4000x256_S256x128_S4000x128_1_0_0_1_n_n.lhsIdx_val_of_single rfl i q
/-- The right operand is read in the row the summation index names. -/
theorem rhs_row (i : S4000x128.Idx) (q : dot_S4000x256_S256x128_S4000x128_1_0_0_1_n_n.contr.Idx) :
    (dot_S4000x256_S256x128_S4000x128_1_0_0_1_n_n.rhsIdx i q 0).val = (q ⟨0, by decide⟩).val :=
  dot_S4000x256_S256x128_S4000x128_1_0_0_1_n_n.rhsIdx_val_of_single rfl i q
/-- The right operand is read in the output's column. -/
theorem rhs_col (i : S4000x128.Idx) (q : dot_S4000x256_S256x128_S4000x128_1_0_0_1_n_n.contr.Idx) :
    (dot_S4000x256_S256x128_S4000x128_1_0_0_1_n_n.rhsIdx i q 1).val = (i 1).val := by
  unfold DotDims.rhsIdx
  rw [dif_neg (show ¬(1 : Fin S256x128.rank) ∈ dot_S4000x256_S256x128_S4000x128_1_0_0_1_n_n.rhsBatch by decide), dif_pos (show (1 : Fin S256x128.rank) ∈ dot_S4000x256_S256x128_S4000x128_1_0_0_1_n_n.rhsNonContracting by decide)]
  rfl

/-- A [4000,256] by [256,128] product accumulated into zeros, at entry (p, q): the sum over the 256 shared positions. -/
theorem product_at (A : FVec Ideal S4000x256 .bf16) (B : FVec Ideal S256x128 .bf16) (p : Fin 4000) (q : Fin 128) :
    matmul (F := Ideal) dot_S4000x256_S256x128_S4000x128_1_0_0_1_n_n none A B (constant (F := Ideal) S4000x128 .f32 0x00000000#32) (ix2 p q)
      = ∑ k : Fin 256, A (ix2 p k) * B (ix2 k q) := by
  simp only [matmul]
  rw [Ideal.matmul_constant_zero_apply, ← Equiv.sum_comp (ValueIdx.contrEquiv1 dot_S4000x256_S256x128_S4000x128_1_0_0_1_n_n 256 rfl rfl).symm]
  refine Finset.sum_congr rfl fun k _ => ?_
  have hk := ValueIdx.contrEquiv1_symm_val dot_S4000x256_S256x128_S4000x128_1_0_0_1_n_n 256 rfl rfl k
  have el : dot_S4000x256_S256x128_S4000x128_1_0_0_1_n_n.lhsIdx (ix2 p q) ((ValueIdx.contrEquiv1 dot_S4000x256_S256x128_S4000x128_1_0_0_1_n_n 256 rfl rfl).symm k) = ix2 p k := funext fun a => Fin.ext (by
    match a with
    | ⟨0, _⟩ => exact lhs_row _ _
    | ⟨1, _⟩ => exact (lhs_col _ _).trans hk)
  have er : dot_S4000x256_S256x128_S4000x128_1_0_0_1_n_n.rhsIdx (ix2 p q) ((ValueIdx.contrEquiv1 dot_S4000x256_S256x128_S4000x128_1_0_0_1_n_n 256 rfl rfl).symm k) = ix2 k q := funext fun a => Fin.ext (by
    match a with
    | ⟨0, _⟩ => exact (rhs_row _ _).trans hk
    | ⟨1, _⟩ => exact rhs_col _ _)
  rw [el, er]

/-! ## The layout operations at an entry -/

/-- Two [4000,128] blocks side by side, at column k of row p: the left block below column 128, the right block from there on. -/
theorem beside_at (a b : FVec Ideal S4000x128 .bf16) (p : Fin 4000) (k : Fin 256) :
    concatenate S4000x256 1 [⟨S4000x128, a⟩, ⟨S4000x128, b⟩] concatenates_S4000x128_S4000x128_S4000x256_d1 (ix2 p k)
      = if h : k.val < 128 then a (ix2 p (⟨k.val, h⟩ : Fin 128)) else b (ix2 p (⟨k.val - 128, by have := k.isLt; omega⟩ : Fin 128)) := by
  by_cases h : k.val < 128
  · rw [dif_pos h]
    refine concatenate_pair_apply_left (1 : Fin S4000x256.rank) a b concatenates_S4000x128_S4000x128_S4000x256_d1 (ix2 p k) rfl (ix2 p (⟨k.val, h⟩ : Fin 128)) ?_
    intro c
    match c with
    | ⟨0, _⟩ => rfl
    | ⟨1, _⟩ => rfl
  · rw [dif_neg h]
    refine concatenate_pair_apply_right (1 : Fin S4000x256.rank) a b concatenates_S4000x128_S4000x128_S4000x256_d1 (ix2 p k) rfl rfl (ix2 p (⟨k.val - 128, by have := k.isLt; omega⟩ : Fin 128)) ?_ ?_
    · intro c hc
      match c with
      | ⟨0, _⟩ => rfl
      | ⟨1, _⟩ => exact absurd rfl hc
    · show (k.val - 128) + 128 = k.val
      omega

/-- A [4000,1] column spread over 128 columns reads, anywhere in row p, the column's entry p. -/
theorem spread_col_at (v : FVec Ideal S4000x1 .f32) (p : Fin 4000) (q : Fin 128) :
    broadcastTo S4000x128 v broadcasts_S4000x1_S4000x128 (ix2 p q) = v (ix2 p (0 : Fin 1)) := by
  refine broadcastTo_apply v broadcasts_S4000x1_S4000x128 (ix2 p q) (ix2 p (0 : Fin 1)) ?_
  intro a
  match a with
  | ⟨0, _⟩ => rfl
  | ⟨1, _⟩ => rfl

/-- A 128-vector laid as one row and spread over 4000 rows reads, anywhere in column q, the vector's entry q. -/
theorem spread_row_at (b : FVec Ideal S128 .f32) (p : Fin 4000) (q : Fin 128) :
    broadcastTo S4000x128 (shapeCast S1x128 b shapeCasts_S128_S1x128) broadcasts_S1x128_S4000x128 (ix2 p q) = b (ix1 q) := by
  refine (broadcastTo_apply _ broadcasts_S1x128_S4000x128 (ix2 p q) (ix2 (0 : Fin 1) q) ?_).trans ?_
  · intro a
    match a with
    | ⟨0, _⟩ => rfl
    | ⟨1, _⟩ => rfl
  · refine (shapeCast_addUnit_apply (![128] : Fin 1 → Nat) b shapeCasts_S128_S1x128 (ix2 (0 : Fin 1) q)).trans ?_
    exact congrArg b (funext fun a => by match a with | ⟨0, _⟩ => rfl)

/-! ## The body's result at an entry -/

/-- Entry (p, q) of what the body computes from its five blocks: the 256-term sum of the row laid side by side
    (neighbour sums times the node's scale, then the node's own features) against column q of the stacked weights,
    plus the bias, clamped below at 0. -/
theorem body_at (x0 x1 : Vec Ideal S4000x128 .f32) (x2 : Vec Ideal S4000x1 .f32) (x3 : Vec Ideal S256x128 .bf16)
    (x4 : Vec Ideal S128 .f32) (p : Fin 4000) (q : Fin 128) :
    k0_pay1 (F := Ideal) x1 x2 x0 x3 x4 (ix2 p q)
      = max ((∑ k : Fin 256,
            (if h : k.val < 128 then x1 (ix2 p (⟨k.val, h⟩ : Fin 128)) * x2 (ix2 p (0 : Fin 1))
              else x0 (ix2 p (⟨k.val - 128, by have := k.isLt; omega⟩ : Fin 128))) * x3 (ix2 k q))
          + x4 (ix1 q)) 0 := by
  unfold k0_pay1
  rw [maximumf_apply, addf_apply, broadcast_apply, spread_row_at, product_at]
  rw [show (Scalar.ofBits .f32 0x00000000#32 : Ideal .f32) = 0 from Ideal.ofBits_zero_f32]
  refine congrArg (fun s => max (s + x4 (ix1 q)) 0) (Finset.sum_congr rfl fun k _ => ?_)
  rw [beside_at, shapeCast_self, shapeCast_self, shapeCast_self]
  by_cases h : k.val < 128
  · rw [dif_pos h, dif_pos h, truncf_apply, mulf_apply, spread_col_at]
  · rw [dif_neg h, dif_neg h, truncf_apply]

/-! ## From an entry of the body's result to an entry of the first layer -/

/-- If row p of the node-feature and neighbour-sum blocks is row r of their arrays, entry p of the scale block is entry r
    of the scale column, and the weight and bias blocks are the whole arrays, then entry (p, q) of the body's result is
    entry (r, q) of the first layer of the arrays. -/
theorem body_entry (Y A : FVec Ideal S100000x128 .f32) (I : FVec Ideal S100000x1 .f32) (Wc : FVec Ideal S256x128 .bf16)
    (b : FVec Ideal S128 .f32) (x0 x1 : Vec Ideal S4000x128 .f32) (x2 : Vec Ideal S4000x1 .f32)
    (x3 : Vec Ideal S256x128 .bf16) (x4 : Vec Ideal S128 .f32) (r : Fin 100000) (p : Fin 4000) (q : Fin 128)
    (h0 : ∀ k : Fin 128, x0 (ix2 p k) = Y (ix2 r k))
    (h1 : ∀ k : Fin 128, x1 (ix2 p k) = A (ix2 r k))
    (h2 : x2 (ix2 p (0 : Fin 1)) = I (ix2 r (0 : Fin 1)))
    (h3 : ∀ (k : Fin 256) (n : Fin 128), x3 (ix2 k n) = Wc (ix2 k n))
    (h4 : ∀ n : Fin 128, x4 (ix1 n) = b (ix1 n)) :
    k0_pay1 (F := Ideal) x1 x2 x0 x3 x4 (ix2 p q) = fused1 Y A I Wc b (ix2 r q) := by
  rw [body_at]
  show _ = max ((∑ k : Fin 256, fusedRow Y A I r k * Wc (ix2 k q)) + b (ix1 q)) 0
  rw [h4]
  refine congrArg (fun s => max (s + b (ix1 q)) 0) (Finset.sum_congr rfl fun k _ => ?_)
  rw [h3]
  unfold fusedRow
  by_cases h : k.val < 128
  · rw [dif_pos h, dif_pos h, h1, h2]
  · rw [dif_neg h, dif_neg h, h0]

/-! ## The blocks of the five operands at a grid point -/

theorem zeros2 : (![0, 0] : Fin 2 → Nat) = fun _ => 0 := funext fun a => by fin_cases a <;> rfl
theorem zeros1 : (![0] : Fin 1 → Nat) = fun _ => 0 := funext fun a => by fin_cases a <;> rfl

/-- The block index of each window at each grid point, decided over the 25 points: the four row-blocked windows take
    block t of their rows and the whole width; the weights and the bias take their whole arrays. -/
theorem block_facts : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = 0
    ∧ win0_3.index t (1 : Fin 2) = 0
    ∧ win0_4.index t (0 : Fin 1) = 0
    ∧ win0_5.index t (0 : Fin 2) = t.val
    ∧ win0_5.index t (1 : Fin 2) = 0 :=
  (by decide +kernel : ∀ t : Fin grid0.N, _)

/-- Row p of the node-feature block at point t is row 4000·t + p of the node features. -/
theorem feat_block (c : Dev nD) (t : Fin cfg0.N) (p : Fin 4000) (k : Fin 128) (r : Fin 100000)
    (hr : r.val = 4000 * t.val + p.val) :
    (iblk0 V c 0 t : Vec Ideal S4000x128 .f32) (ix2 p k) = (V c main_arg0 : FVec Ideal S100000x128 .f32) (ix2 r k) := by
  obtain ⟨e0, e1, -⟩ := block_facts t
  unfold iblk0
  rw [View.read_apply]
  show V c main_arg0 _ = V c main_arg0 _
  congr 1
  funext a
  apply Fin.ext
  match a with
  | ⟨0, _⟩ => show win0_0.index t (0 : Fin 2) * 4000 + 1 * p.val = r.val; rw [e0, hr]; omega
  | ⟨1, _⟩ => show win0_0.index t (1 : Fin 2) * 128 + 1 * k.val = k.val; rw [e1]; omega

/-- Row p of the neighbour-sum block at point t is row 4000·t + p of the neighbour sums. -/
theorem agg_block (c : Dev nD) (t : Fin cfg0.N) (p : Fin 4000) (k : Fin 128) (r : Fin 100000)
    (hr : r.val = 4000 * t.val + p.val) :
    (iblk0 V c 1 t : Vec Ideal S4000x128 .f32) (ix2 p k) = (V c main_v21 : FVec Ideal S100000x128 .f32) (ix2 r k) := by
  obtain ⟨-, -, e0, e1, -⟩ := block_facts t
  unfold iblk0
  rw [View.read_apply]
  show V c main_v21 _ = V c main_v21 _
  congr 1
  funext a
  apply Fin.ext
  match a with
  | ⟨0, _⟩ => show win0_1.index t (0 : Fin 2) * 4000 + 1 * p.val = r.val; rw [e0, hr]; omega
  | ⟨1, _⟩ => show win0_1.index t (1 : Fin 2) * 128 + 1 * k.val = k.val; rw [e1]; omega

/-- Entry p of the scale block at point t is entry 4000·t + p of the scale column. -/
theorem scale_block (c : Dev nD) (t : Fin cfg0.N) (p : Fin 4000) (r : Fin 100000)
    (hr : r.val = 4000 * t.val + p.val) :
    (iblk0 V c 2 t : Vec Ideal S4000x1 .f32) (ix2 p (0 : Fin 1)) = (V c main_v11 : FVec Ideal S100000x1 .f32) (ix2 r (0 : Fin 1)) := by
  obtain ⟨-, -, -, -, e0, e1, -⟩ := block_facts t
  unfold iblk0
  rw [View.read_apply]
  show V c main_v11 _ = V c main_v11 _
  congr 1
  funext a
  apply Fin.ext
  match a with
  | ⟨0, _⟩ => show win0_2.index t (0 : Fin 2) * 4000 + 1 * p.val = r.val; rw [e0, hr]; omega
  | ⟨1, _⟩ => show win0_2.index t (1 : Fin 2) * 1 + 1 * 0 = 0; rw [e1]

/-- The weight block at any point is the whole stacked weight matrix. -/
theorem weight_block (c : Dev nD) (t : Fin cfg0.N) (k : Fin 256) (n : Fin 128) :
    (iblk0 V c 3 t : Vec Ideal S256x128 .bf16) (ix2 k n) = (V c main_v23 : FVec Ideal S256x128 .bf16) (ix2 k n) := by
  obtain ⟨-, -, -, -, -, -, e0, e1, -⟩ := block_facts t
  unfold iblk0
  rw [View.read_apply]
  show V c main_v23 _ = V c main_v23 _
  congr 1
  funext a
  apply Fin.ext
  match a with
  | ⟨0, _⟩ => show win0_3.index t (0 : Fin 2) * 256 + 1 * k.val = k.val; rw [e0]; omega
  | ⟨1, _⟩ => show win0_3.index t (1 : Fin 2) * 128 + 1 * n.val = n.val; rw [e1]; omega

/-- The bias block at any point is the whole bias. -/
theorem bias_block (c : Dev nD) (t : Fin cfg0.N) (n : Fin 128) :
    (iblk0 V c 4 t : Vec Ideal S128 .f32) (ix1 n) = (V c main_arg3 : FVec Ideal S128 .f32) (ix1 n) := by
  obtain ⟨-, -, -, -, -, -, -, -, e0, -⟩ := block_facts t
  unfold iblk0
  rw [View.read_apply]
  show V c main_arg3 _ = V c main_arg3 _
  congr 1
  funext a
  apply Fin.ext
  match a with
  | ⟨0, _⟩ => show win0_4.index t (0 : Fin 1) * 128 + 1 * n.val = n.val; rw [e0]; omega

/-! ## What a grid point writes back -/

/-- The body's result from whole-block loads and one whole-block store is the body's term of the blocks. -/
theorem out_eq (x0 x1 : Vec Ideal S4000x128 .f32) (x2 : Vec Ideal S4000x1 .f32) (x3 : Vec Ideal S256x128 .bf16)
    (x4 : Vec Ideal S128 .f32) : out0_5 (F := Ideal) x0 x1 x2 x3 x4 = k0_pay1 x1 x2 x0 x3 x4 := by
  unfold out0_5
  rw [View.canon_unit_zero zeros2]
  simp only [View.ld_unit_zero (S := S4000x128) zeros2, View.ld_unit_zero (S := S4000x1) zeros2,
    View.ld_unit_zero (S := S256x128) zeros2, View.ld_unit_zero (S := S128) zeros1]

set_option maxHeartbeats 400000 in
/-- What point t writes back is block t of the first layer of the operand arrays. -/
theorem flushed_eq (c : Dev nD) (t : Fin cfg0.N) :
    (dat0 (F := Ideal) V c).flushed 5 t
      = ((cfg0.win 5).blk t).view.read (Elt Ideal) (fused1 (V c main_arg0) (V c main_v21) (V c main_v11) (V c main_v23) (V c main_arg3)) := by
  show (cfg0.win 5).cut (grid0.coords t) ((dat0 V c).after 5 t) = _
  rw [after0_5, out_eq]
  funext j
  have hp : (j 0).val < 4000 := (j 0).isLt
  have hq : (j 1).val < 128 := (j 1).isLt
  have ht : t.val < 25 := Nat.lt_of_lt_of_eq t.isLt (show cfg0.N = 25 from N_0)
  obtain ⟨-, -, -, -, -, -, -, -, -, e0, e1⟩ := block_facts t
  have hj : (cfg0.win 5).xinj (grid0.coords t) j = ix2 (⟨(j 0).val, hp⟩ : Fin 4000) (⟨(j 1).val, hq⟩ : Fin 128) :=
    funext fun a => by match a with | ⟨0, _⟩ => rfl | ⟨1, _⟩ => rfl
  have hi : ((cfg0.win 5).blk t).view.emb j
      = ix2 (⟨4000 * t.val + (j 0).val, by omega⟩ : Fin 100000) (⟨(j 1).val, hq⟩ : Fin 128) := by
    funext a
    apply Fin.ext
    match a with
    | ⟨0, _⟩ => show win0_5.index t (0 : Fin 2) * 4000 + 1 * (j 0).val = 4000 * t.val + (j 0).val; rw [e0]; omega
    | ⟨1, _⟩ => show win0_5.index t (1 : Fin 2) * 128 + 1 * (j 1).val = (j 1).val; rw [e1]; omega
  show k0_pay1 (F := Ideal) _ _ _ _ _ ((cfg0.win 5).xinj (grid0.coords t) j) = fused1 _ _ _ _ _ (((cfg0.win 5).blk t).view.emb j)
  rw [hj, hi]
  exact body_entry _ _ _ _ _ _ _ _ _ _ _ _ _
    (fun k => feat_block V c t _ k _ rfl) (fun k => agg_block V c t _ k _ rfl) (scale_block V c t _ _ rfl)
    (weight_block V c t) (bias_block V c t)

/-! ## The 25 blocks cover the array -/

/-- An entry of the output array is in point t's block iff each coordinate is in the block's range on its axis. -/
theorem mem_block (t : Fin cfg0.N) (i : S100000x128.Idx) :
    i ∈ ((cfg0.win 5).blk t).view.set ↔ ∀ a : Fin 2, win0_5.index t a * S4000x128.size a ≤ (i a).val ∧ (i a).val < win0_5.index t a * S4000x128.size a + S4000x128.size a := by
  show i ∈ ((View.whole main_v24).slice (win0_5.rect t)).set ↔ _
  rw [View.set_slice_whole, Rect.mem_set_unit]
  exact Iff.rfl

/-- Row r of the output array is written back by point r / 4000. -/
theorem covered (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  refine ⟨⟨(i 0).val / 4000, by rw [show cfg0.N = 25 from N_0]; omega⟩, flush0_5 _, ?_⟩
  obtain ⟨-, -, -, -, -, -, -, -, -, e0, e1⟩ := block_facts ⟨(i 0).val / 4000, by rw [show cfg0.N = 25 from N_0]; omega⟩
  rw [mem_block]
  intro a
  match a with
  | ⟨0, _⟩ =>
    show win0_5.index _ (0 : Fin 2) * 4000 ≤ (i 0).val ∧ (i 0).val < win0_5.index _ (0 : Fin 2) * 4000 + 4000
    rw [e0]
    show (i 0).val / 4000 * 4000 ≤ (i 0).val ∧ (i 0).val < (i 0).val / 4000 * 4000 + 4000
    omega
  | ⟨1, _⟩ =>
    show win0_5.index _ (1 : Fin 2) * 128 ≤ (i 1).val ∧ (i 1).val < win0_5.index _ (1 : Fin 2) * 128 + 128
    rw [e1]
    omega

/-- After the first pallas_call its output array holds the first layer, fused spelling, of the five operand arrays as
    the call found them: node features, neighbour sums, the per-node scale, the stacked weights, the bias. -/
theorem final (c : Dev nD) :
    (dat0 (F := Ideal) V c).arrAt 5 cfg0.N
      = fused1 (V c main_arg0) (V c main_v21) (V c main_v11) (V c main_v23) (V c main_arg3) :=
  (dat0 (F := Ideal) V c).arrAt_eq_of_cover 5
    (fused1 (V c main_arg0) (V c main_v21) (V c main_v11) (V c main_v23) (V c main_arg3))
    (fun t _ => flushed_eq V c t) covered

end Cert.KernelIdeal.Layer1

end
-- ==== Proof.Layer2.lean ====
/-
  The second pallas_call's output array, whole: 25 blocks of 4000 nodes, each the second layer (fused spelling) of
  the blocks of its five operands, make up the second layer of the whole arrays.
-/
import proofs.«424404_j19155554140466_3_alg».proof.Proof.Gen.KernelIdeal.Frame
import proofs.«424404_j19155554140466_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Layer2

open Idealize.ShloMosaic Idealize.ShloMosaic.TcCoe Idealize.ShloMosaic.ValueIdx Idealize.SL.Sem Cert.KernelIdeal Cert.KernelIdeal.Gen Cert.Sage

variable (V : (c : Dev nD) → (b : Ref sig .tc) → Buf (Elt Ideal) ((c : Thread nD τ).loc b))

/-! ## The 256-term product at an entry, into 64 columns -/

/-- The left operand is read in the output's row. -/
theorem lhs_row (i : S4000x64.Idx) (q : dot_S4000x256_S256x64_S4000x64_1_0_0_1_n_n.contr.Idx) :
    (dot_S4000x256_S256x64_S4000x64_1_0_0_1_n_n.lhsIdx i q 0).val = (i 0).val := by
  unfold DotDims.lhsIdx
  rw [dif_neg (show ¬(0 : Fin S4000x256.rank) ∈ dot_S4000x256_S256x64_S4000x64_1_0_0_1_n_n.lhsBatch by decide), dif_pos (show (0 : Fin S4000x256.rank) ∈ dot_S4000x256_S256x64_S4000x64_1_0_0_1_n_n.lhsNonContracting by decide)]
  rfl
/-- The left operand is read in the column the summation index names. -/
theorem lhs_col (i : S4000x64.Idx) (q : dot_S4000x256_S256x64_S4000x64_1_0_0_1_n_n.contr.Idx) :
    (dot_S4000x256_S256x64_S4000x64_1_0_0_1_n_n.lhsIdx i q 1).val = (q ⟨0, by decide⟩).val :=
  dot_S4000x256_S256x64_S4000x64_1_0_0_1_n_n.lhsIdx_val_of_single rfl i q
/-- The right operand is read in the row the summation index names. -/
theorem rhs_row (i : S4000x64.Idx) (q : dot_S4000x256_S256x64_S4000x64_1_0_0_1_n_n.contr.Idx) :
    (dot_S4000x256_S256x64_S4000x64_1_0_0_1_n_n.rhsIdx i q 0).val = (q ⟨0, by decide⟩).val :=
  dot_S4000x256_S256x64_S4000x64_1_0_0_1_n_n.rhsIdx_val_of_single rfl i q
/-- The right operand is read in the output's column. -/
theorem rhs_col (i : S4000x64.Idx) (q : dot_S4000x256_S256x64_S4000x64_1_0_0_1_n_n.contr.Idx) :
    (dot_S4000x256_S256x64_S4000x64_1_0_0_1_n_n.rhsIdx i q 1).val = (i 1).val := by
  unfold DotDims.rhsIdx
  rw [dif_neg (show ¬(1 : Fin S256x64.rank) ∈ dot_S4000x256_S256x64_S4000x64_1_0_0_1_n_n.rhsBatch by decide), dif_pos (show (1 : Fin S256x64.rank) ∈ dot_S4000x256_S256x64_S4000x64_1_0_0_1_n_n.rhsNonContracting by decide)]
  rfl

/-- A [4000,256] by [256,64] product accumulated into zeros, at entry (p, q): the sum over the 256 shared positions. -/
theorem product_at (A : FVec Ideal S4000x256 .bf16) (B : FVec Ideal S256x64 .bf16) (p : Fin 4000) (q : Fin 64) :
    matmul (F := Ideal) dot_S4000x256_S256x64_S4000x64_1_0_0_1_n_n none A B (constant (F := Ideal) S4000x64 .f32 0x00000000#32) (ix2 p q)
      = ∑ k : Fin 256, A (ix2 p k) * B (ix2 k q) := by
  simp only [matmul]
  rw [Ideal.matmul_constant_zero_apply, ← Equiv.sum_comp (ValueIdx.contrEquiv1 dot_S4000x256_S256x64_S4000x64_1_0_0_1_n_n 256 rfl rfl).symm]
  refine Finset.sum_congr rfl fun k _ => ?_
  have hk := ValueIdx.contrEquiv1_symm_val dot_S4000x256_S256x64_S4000x64_1_0_0_1_n_n 256 rfl rfl k
  have el : dot_S4000x256_S256x64_S4000x64_1_0_0_1_n_n.lhsIdx (ix2 p q) ((ValueIdx.contrEquiv1 dot_S4000x256_S256x64_S4000x64_1_0_0_1_n_n 256 rfl rfl).symm k) = ix2 p k := funext fun a => Fin.ext (by
    match a with
    | ⟨0, _⟩ => exact lhs_row _ _
    | ⟨1, _⟩ => exact (lhs_col _ _).trans hk)
  have er : dot_S4000x256_S256x64_S4000x64_1_0_0_1_n_n.rhsIdx (ix2 p q) ((ValueIdx.contrEquiv1 dot_S4000x256_S256x64_S4000x64_1_0_0_1_n_n 256 rfl rfl).symm k) = ix2 k q := funext fun a => Fin.ext (by
    match a with
    | ⟨0, _⟩ => exact (rhs_row _ _).trans hk
    | ⟨1, _⟩ => exact rhs_col _ _)
  rw [el, er]

/-! ## The layout operations at an entry -/

/-- Two [4000,128] blocks side by side, at column k of row p: the left block below column 128, the right block from there on. -/
theorem beside_at (a b : FVec Ideal S4000x128 .bf16) (p : Fin 4000) (k : Fin 256) :
    concatenate S4000x256 1 [⟨S4000x128, a⟩, ⟨S4000x128, b⟩] concatenates_S4000x128_S4000x128_S4000x256_d1 (ix2 p k)
      = if h : k.val < 128 then a (ix2 p (⟨k.val, h⟩ : Fin 128)) else b (ix2 p (⟨k.val - 128, by have := k.isLt; omega⟩ : Fin 128)) := by
  by_cases h : k.val < 128
  · rw [dif_pos h]
    refine concatenate_pair_apply_left (1 : Fin S4000x256.rank) a b concatenates_S4000x128_S4000x128_S4000x256_d1 (ix2 p k) rfl (ix2 p (⟨k.val, h⟩ : Fin 128)) ?_
    intro c
    match c with
    | ⟨0, _⟩ => rfl
    | ⟨1, _⟩ => rfl
  · rw [dif_neg h]
    refine concatenate_pair_apply_right (1 : Fin S4000x256.rank) a b concatenates_S4000x128_S4000x128_S4000x256_d1 (ix2 p k) rfl rfl (ix2 p (⟨k.val - 128, by have := k.isLt; omega⟩ : Fin 128)) ?_ ?_
    · intro c hc
      match c with
      | ⟨0, _⟩ => rfl
      | ⟨1, _⟩ => exact absurd rfl hc
    · show (k.val - 128) + 128 = k.val
      omega

/-- A [4000,1] column spread over 128 columns reads, anywhere in row p, the column's entry p. -/
theorem spread_col_at (v : FVec Ideal S4000x1 .f32) (p : Fin 4000) (q : Fin 128) :
    broadcastTo S4000x128 v broadcasts_S4000x1_S4000x128 (ix2 p q) = v (ix2 p (0 : Fin 1)) := by
  refine broadcastTo_apply v broadcasts_S4000x1_S4000x128 (ix2 p q) (ix2 p (0 : Fin 1)) ?_
  intro a
  match a with
  | ⟨0, _⟩ => rfl
  | ⟨1, _⟩ => rfl

/-- A 64-vector laid as one row and spread over 4000 rows reads, anywhere in column q, the vector's entry q. -/
theorem spread_row_at (b : FVec Ideal S64 .f32) (p : Fin 4000) (q : Fin 64) :
    broadcastTo S4000x64 (shapeCast S1x64 b shapeCasts_S64_S1x64) broadcasts_S1x64_S4000x64 (ix2 p q) = b (ix1 q) := by
  refine (broadcastTo_apply _ broadcasts_S1x64_S4000x64 (ix2 p q) (ix2 (0 : Fin 1) q) ?_).trans ?_
  · intro a
    match a with
    | ⟨0, _⟩ => rfl
    | ⟨1, _⟩ => rfl
  · refine (shapeCast_addUnit_apply (![64] : Fin 1 → Nat) b shapeCasts_S64_S1x64 (ix2 (0 : Fin 1) q)).trans ?_
    exact congrArg b (funext fun a => by match a with | ⟨0, _⟩ => rfl)

/-! ## The body's result at an entry -/

/-- Entry (p, q) of what the body computes from its five blocks: the 256-term sum of the row laid side by side
    (neighbour sums times the node's scale, then the node's own features) against column q of the stacked weights,
    plus the bias. No clamp in this layer. -/
theorem body_at (x0 x1 : Vec Ideal S4000x128 .f32) (x2 : Vec Ideal S4000x1 .f32) (x3 : Vec Ideal S256x64 .bf16)
    (x4 : Vec Ideal S64 .f32) (p : Fin 4000) (q : Fin 64) :
    k1_pay1 (F := Ideal) x1 x2 x0 x3 x4 (ix2 p q)
      = (∑ k : Fin 256,
            (if h : k.val < 128 then x1 (ix2 p (⟨k.val, h⟩ : Fin 128)) * x2 (ix2 p (0 : Fin 1))
              else x0 (ix2 p (⟨k.val - 128, by have := k.isLt; omega⟩ : Fin 128))) * x3 (ix2 k q))
          + x4 (ix1 q) := by
  unfold k1_pay1
  rw [addf_apply, spread_row_at, product_at]
  refine congrArg (fun s => s + x4 (ix1 q)) (Finset.sum_congr rfl fun k _ => ?_)
  rw [beside_at, shapeCast_self, shapeCast_self, shapeCast_self, shapeCast_self]
  by_cases h : k.val < 128
  · rw [dif_pos h, dif_pos h, truncf_apply, mulf_apply, spread_col_at]
  · rw [dif_neg h, dif_neg h, truncf_apply]

/-! ## From an entry of the body's result to an entry of the second layer -/

/-- If row p of the hidden-feature and neighbour-sum blocks is row r of their arrays, entry p of the scale block is entry r
    of the scale column, and the weight and bias blocks are the whole arrays, then entry (p, q) of the body's result is
    entry (r, q) of the second layer of the arrays. -/
theorem body_entry (Y A : FVec Ideal S100000x128 .f32) (I : FVec Ideal S100000x1 .f32) (Wc : FVec Ideal S256x64 .bf16)
    (b : FVec Ideal S64 .f32) (x0 x1 : Vec Ideal S4000x128 .f32) (x2 : Vec Ideal S4000x1 .f32)
    (x3 : Vec Ideal S256x64 .bf16) (x4 : Vec Ideal S64 .f32) (r : Fin 100000) (p : Fin 4000) (q : Fin 64)
    (h0 : ∀ k : Fin 128, x0 (ix2 p k) = Y (ix2 r k))
    (h1 : ∀ k : Fin 128, x1 (ix2 p k) = A (ix2 r k))
    (h2 : x2 (ix2 p (0 : Fin 1)) = I (ix2 r (0 : Fin 1)))
    (h3 : ∀ (k : Fin 256) (n : Fin 64), x3 (ix2 k n) = Wc (ix2 k n))
    (h4 : ∀ n : Fin 64, x4 (ix1 n) = b (ix1 n)) :
    k1_pay1 (F := Ideal) x1 x2 x0 x3 x4 (ix2 p q) = fused2 Y A I Wc b (ix2 r q) := by
  rw [body_at]
  show _ = (∑ k : Fin 256, fusedRow Y A I r k * Wc (ix2 k q)) + b (ix1 q)
  rw [h4]
  refine congrArg (fun s => s + b (ix1 q)) (Finset.sum_congr rfl fun k _ => ?_)
  rw [h3]
  unfold fusedRow
  by_cases h : k.val < 128
  · rw [dif_pos h, dif_pos h, h1, h2]
  · rw [dif_neg h, dif_neg h, h0]

/-! ## The blocks of the five operands at a grid point -/

theorem zeros2 : (![0, 0] : Fin 2 → Nat) = fun _ => 0 := funext fun a => by fin_cases a <;> rfl
theorem zeros1 : (![0] : Fin 1 → Nat) = fun _ => 0 := funext fun a => by fin_cases a <;> rfl

/-- The block index of each window at each grid point, decided over the 25 points: the four row-blocked windows take
    block t of their rows and the whole width; the weights and the bias take their whole arrays. -/
theorem block_facts : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_3.index t (0 : Fin 2) = 0
    ∧ win1_3.index t (1 : Fin 2) = 0
    ∧ win1_4.index t (0 : Fin 1) = 0
    ∧ win1_5.index t (0 : Fin 2) = t.val
    ∧ win1_5.index t (1 : Fin 2) = 0 :=
  (by decide +kernel : ∀ t : Fin grid1.N, _)

/-- Row p of the hidden-feature block at point t is row 4000·t + p of the hidden features. -/
theorem feat_block (c : Dev nD) (t : Fin cfg1.N) (p : Fin 4000) (k : Fin 128) (r : Fin 100000)
    (hr : r.val = 4000 * t.val + p.val) :
    (iblk1 V c 0 t : Vec Ideal S4000x128 .f32) (ix2 p k) = (V c main_v24 : FVec Ideal S100000x128 .f32) (ix2 r k) := by
  obtain ⟨e0, e1, -⟩ := block_facts t
  unfold iblk1
  rw [View.read_apply]
  show V c main_v24 _ = V c main_v24 _
  congr 1
  funext a
  apply Fin.ext
  match a with
  | ⟨0, _⟩ => show win1_0.index t (0 : Fin 2) * 4000 + 1 * p.val = r.val; rw [e0, hr]; omega
  | ⟨1, _⟩ => show win1_0.index t (1 : Fin 2) * 128 + 1 * k.val = k.val; rw [e1]; omega

/-- Row p of the neighbour-sum block at point t is row 4000·t + p of the neighbour sums. -/
theorem agg_block (c : Dev nD) (t : Fin cfg1.N) (p : Fin 4000) (k : Fin 128) (r : Fin 100000)
    (hr : r.val = 4000 * t.val + p.val) :
    (iblk1 V c 1 t : Vec Ideal S4000x128 .f32) (ix2 p k) = (V c main_v34 : FVec Ideal S100000x128 .f32) (ix2 r k) := by
  obtain ⟨-, -, e0, e1, -⟩ := block_facts t
  unfold iblk1
  rw [View.read_apply]
  show V c main_v34 _ = V c main_v34 _
  congr 1
  funext a
  apply Fin.ext
  match a with
  | ⟨0, _⟩ => show win1_1.index t (0 : Fin 2) * 4000 + 1 * p.val = r.val; rw [e0, hr]; omega
  | ⟨1, _⟩ => show win1_1.index t (1 : Fin 2) * 128 + 1 * k.val = k.val; rw [e1]; omega

/-- Entry p of the scale block at point t is entry 4000·t + p of the scale column. -/
theorem scale_block (c : Dev nD) (t : Fin cfg1.N) (p : Fin 4000) (r : Fin 100000)
    (hr : r.val = 4000 * t.val + p.val) :
    (iblk1 V c 2 t : Vec Ideal S4000x1 .f32) (ix2 p (0 : Fin 1)) = (V c main_v11 : FVec Ideal S100000x1 .f32) (ix2 r (0 : Fin 1)) := by
  obtain ⟨-, -, -, -, e0, e1, -⟩ := block_facts t
  unfold iblk1
  rw [View.read_apply]
  show V c main_v11 _ = V c main_v11 _
  congr 1
  funext a
  apply Fin.ext
  match a with
  | ⟨0, _⟩ => show win1_2.index t (0 : Fin 2) * 4000 + 1 * p.val = r.val; rw [e0, hr]; omega
  | ⟨1, _⟩ => show win1_2.index t (1 : Fin 2) * 1 + 1 * 0 = 0; rw [e1]

/-- The weight block at any point is the whole stacked weight matrix. -/
theorem weight_block (c : Dev nD) (t : Fin cfg1.N) (k : Fin 256) (n : Fin 64) :
    (iblk1 V c 3 t : Vec Ideal S256x64 .bf16) (ix2 k n) = (V c main_v36 : FVec Ideal S256x64 .bf16) (ix2 k n) := by
  obtain ⟨-, -, -, -, -, -, e0, e1, -⟩ := block_facts t
  unfold iblk1
  rw [View.read_apply]
  show V c main_v36 _ = V c main_v36 _
  congr 1
  funext a
  apply Fin.ext
  match a with
  | ⟨0, _⟩ => show win1_3.index t (0 : Fin 2) * 256 + 1 * k.val = k.val; rw [e0]; omega
  | ⟨1, _⟩ => show win1_3.index t (1 : Fin 2) * 64 + 1 * n.val = n.val; rw [e1]; omega

/-- The bias block at any point is the whole bias. -/
theorem bias_block (c : Dev nD) (t : Fin cfg1.N) (n : Fin 64) :
    (iblk1 V c 4 t : Vec Ideal S64 .f32) (ix1 n) = (V c main_arg6 : FVec Ideal S64 .f32) (ix1 n) := by
  obtain ⟨-, -, -, -, -, -, -, -, e0, -⟩ := block_facts t
  unfold iblk1
  rw [View.read_apply]
  show V c main_arg6 _ = V c main_arg6 _
  congr 1
  funext a
  apply Fin.ext
  match a with
  | ⟨0, _⟩ => show win1_4.index t (0 : Fin 1) * 64 + 1 * n.val = n.val; rw [e0]; omega

/-! ## What a grid point writes back -/

/-- The body's result from whole-block loads and one whole-block store is the body's term of the blocks. -/
theorem out_eq (x0 x1 : Vec Ideal S4000x128 .f32) (x2 : Vec Ideal S4000x1 .f32) (x3 : Vec Ideal S256x64 .bf16)
    (x4 : Vec Ideal S64 .f32) : out1_5 (F := Ideal) x0 x1 x2 x3 x4 = k1_pay1 x1 x2 x0 x3 x4 := by
  unfold out1_5
  rw [View.canon_unit_zero zeros2]
  simp only [View.ld_unit_zero (S := S4000x128) zeros2, View.ld_unit_zero (S := S4000x1) zeros2,
    View.ld_unit_zero (S := S256x64) zeros2, View.ld_unit_zero (S := S64) zeros1]

set_option maxHeartbeats 400000 in
/-- What point t writes back is block t of the second layer of the operand arrays. -/
theorem flushed_eq (c : Dev nD) (t : Fin cfg1.N) :
    (dat1 (F := Ideal) V c).flushed 5 t
      = ((cfg1.win 5).blk t).view.read (Elt Ideal) (fused2 (V c main_v24) (V c main_v34) (V c main_v11) (V c main_v36) (V c main_arg6)) := by
  show (cfg1.win 5).cut (grid1.coords t) ((dat1 V c).after 5 t) = _
  rw [after1_5, out_eq]
  funext j
  have hp : (j 0).val < 4000 := (j 0).isLt
  have hq : (j 1).val < 64 := (j 1).isLt
  have ht : t.val < 25 := Nat.lt_of_lt_of_eq t.isLt (show cfg1.N = 25 from N_1)
  obtain ⟨-, -, -, -, -, -, -, -, -, e0, e1⟩ := block_facts t
  have hj : (cfg1.win 5).xinj (grid1.coords t) j = ix2 (⟨(j 0).val, hp⟩ : Fin 4000) (⟨(j 1).val, hq⟩ : Fin 64) :=
    funext fun a => by match a with | ⟨0, _⟩ => rfl | ⟨1, _⟩ => rfl
  have hi : ((cfg1.win 5).blk t).view.emb j
      = ix2 (⟨4000 * t.val + (j 0).val, by omega⟩ : Fin 100000) (⟨(j 1).val, hq⟩ : Fin 64) := by
    funext a
    apply Fin.ext
    match a with
    | ⟨0, _⟩ => show win1_5.index t (0 : Fin 2) * 4000 + 1 * (j 0).val = 4000 * t.val + (j 0).val; rw [e0]; omega
    | ⟨1, _⟩ => show win1_5.index t (1 : Fin 2) * 64 + 1 * (j 1).val = (j 1).val; rw [e1]; omega
  show k1_pay1 (F := Ideal) _ _ _ _ _ ((cfg1.win 5).xinj (grid1.coords t) j) = fused2 _ _ _ _ _ (((cfg1.win 5).blk t).view.emb j)
  rw [hj, hi]
  exact body_entry _ _ _ _ _ _ _ _ _ _ _ _ _
    (fun k => feat_block V c t _ k _ rfl) (fun k => agg_block V c t _ k _ rfl) (scale_block V c t _ _ rfl)
    (weight_block V c t) (bias_block V c t)

/-! ## The 25 blocks cover the array -/

/-- An entry of the output array is in point t's block iff each coordinate is in the block's range on its axis. -/
theorem mem_block (t : Fin cfg1.N) (i : S100000x64.Idx) :
    i ∈ ((cfg1.win 5).blk t).view.set ↔ ∀ a : Fin 2, win1_5.index t a * S4000x64.size a ≤ (i a).val ∧ (i a).val < win1_5.index t a * S4000x64.size a + S4000x64.size a := by
  show i ∈ ((View.whole main_v37).slice (win1_5.rect t)).set ↔ _
  rw [View.set_slice_whole, Rect.mem_set_unit]
  exact Iff.rfl

/-- Row r of the output array is written back by point r / 4000. -/
theorem covered (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  refine ⟨⟨(i 0).val / 4000, by rw [show cfg1.N = 25 from N_1]; omega⟩, flush1_5 _, ?_⟩
  obtain ⟨-, -, -, -, -, -, -, -, -, e0, e1⟩ := block_facts ⟨(i 0).val / 4000, by rw [show cfg1.N = 25 from N_1]; omega⟩
  rw [mem_block]
  intro a
  match a with
  | ⟨0, _⟩ =>
    show win1_5.index _ (0 : Fin 2) * 4000 ≤ (i 0).val ∧ (i 0).val < win1_5.index _ (0 : Fin 2) * 4000 + 4000
    rw [e0]
    show (i 0).val / 4000 * 4000 ≤ (i 0).val ∧ (i 0).val < (i 0).val / 4000 * 4000 + 4000
    omega
  | ⟨1, _⟩ =>
    show win1_5.index _ (1 : Fin 2) * 64 ≤ (i 1).val ∧ (i 1).val < win1_5.index _ (1 : Fin 2) * 64 + 64
    rw [e1]
    omega

/-- After the second pallas_call its output array holds the second layer, fused spelling, of the five operand arrays
    as the call found them: the hidden features, their neighbour sums, the per-node scale, the stacked weights, the bias. -/
theorem final (c : Dev nD) :
    (dat1 (F := Ideal) V c).arrAt 5 cfg1.N
      = fused2 (V c main_v24) (V c main_v34) (V c main_v11) (V c main_v36) (V c main_arg6) :=
  (dat1 (F := Ideal) V c).arrAt_eq_of_cover 5
    (fused2 (V c main_v24) (V c main_v34) (V c main_v11) (V c main_v36) (V c main_arg6))
    (fun t _ => flushed_eq V c t) covered

end Cert.KernelIdeal.Layer2

end
-- ==== Proof.Through.lean ====
/-
  The kernel program's result, read back through its run: the contents of the result buffer at the last segment
  boundary are the second layer (fused spelling) of the first layer (fused spelling) of the argument arrays.

  @main is four segments: host operations, the first pallas_call, host operations, the second pallas_call. The first
  stretch computes, from the arguments, the edge list's two index rows, the reciprocal degrees, the neighbour sums of
  the input features and the first layer's stacked weights. The first call leaves the first layer in its output
  array and every other buffer as it found it. The second stretch gathers and sums THAT array along the same edges
  and stacks the second layer's weights; the second call leaves the second layer in the result buffer.
-/
import proofs.«424404_j19155554140466_3_alg».proof.Proof.Gen.KernelIdeal.Frame
import proofs.«424404_j19155554140466_3_alg».proof.Proof.Spec
import proofs.«424404_j19155554140466_3_alg».proof.Proof.Layer1
import proofs.«424404_j19155554140466_3_alg».proof.Proof.Layer2
import Idealize.ShloMosaic.Lib.StableHlo.Run

set_option maxRecDepth 16384

noncomputable section

namespace Cert.KernelIdeal.Through

open Idealize.ShloMosaic Idealize.ShloMosaic.TcCoe Idealize.SL.Sem Idealize.ShloMosaic.StableHlo
open Cert.KernelIdeal Cert.KernelIdeal.Gen Cert.Sage

variable (m : (ℓ : Loc nD τ sig) → Buf (Elt Ideal) ℓ) (ρ : Dev nD → PrngReg)

/-! ## After the first stretch of host operations -/

theorem first_src (c : Dev nD) :
    V1 m ρ c main_v1 = srcWords (m ((c : Thread nD τ).loc main_arg1)) := by
  show StableHlo.after hostOps0 (W0 m ρ c) (Proc.devRef .tc main_v1) = _
  after_results; rfl

theorem first_dst (c : Dev nD) :
    V1 m ρ c main_v3 = dstWords (m ((c : Thread nD τ).loc main_arg1)) := by
  show StableHlo.after hostOps0 (W0 m ρ c) (Proc.devRef .tc main_v3) = _
  after_results; rfl

/-- The scale column the calls read: the reciprocal of each node's in-degree (or of 1). -/
theorem first_scale (c : Dev nD) :
    V1 m ρ c main_v11 = invDegree (m ((c : Thread nD τ).loc main_arg1)) := by
  show StableHlo.after hostOps0 (W0 m ρ c) (Proc.devRef .tc main_v11) = _
  after_results; rfl

set_option maxHeartbeats 4000000 in
/-- The neighbour sums of the input features. -/
theorem first_sum (c : Dev nD) :
    V1 m ρ c main_v21 = neighbourSum (m ((c : Thread nD τ).loc main_arg0)) (m ((c : Thread nD τ).loc main_arg1)) := by
  show StableHlo.after hostOps0 (W0 m ρ c) (Proc.devRef .tc main_v21) = _
  after_results_simp
  rfl

/-- The first layer's weights, stacked. -/
theorem first_weights (c : Dev nD) :
    V1 m ρ c main_v23 = stacked1 (m ((c : Thread nD τ).loc main_arg2)) (m ((c : Thread nD τ).loc main_arg4)) := by
  show StableHlo.after hostOps0 (W0 m ρ c) (Proc.devRef .tc main_v23) = _
  after_results; rfl

/-- No operation of the first stretch writes an argument. -/
theorem first_arg0 (c : Dev nD) : V1 m ρ c main_arg0 = m ((c : Thread nD τ).loc main_arg0) := by
  show StableHlo.after hostOps0 (W0 m ρ c) (Proc.devRef .tc main_arg0) = _
  after_results
theorem first_arg3 (c : Dev nD) : V1 m ρ c main_arg3 = m ((c : Thread nD τ).loc main_arg3) := by
  show StableHlo.after hostOps0 (W0 m ρ c) (Proc.devRef .tc main_arg3) = _
  after_results
theorem first_arg5 (c : Dev nD) : V1 m ρ c main_arg5 = m ((c : Thread nD τ).loc main_arg5) := by
  show StableHlo.after hostOps0 (W0 m ρ c) (Proc.devRef .tc main_arg5) = _
  after_results
theorem first_arg6 (c : Dev nD) : V1 m ρ c main_arg6 = m ((c : Thread nD τ).loc main_arg6) := by
  show StableHlo.after hostOps0 (W0 m ρ c) (Proc.devRef .tc main_arg6) = _
  after_results
theorem first_arg7 (c : Dev nD) : V1 m ρ c main_arg7 = m ((c : Thread nD τ).loc main_arg7) := by
  show StableHlo.after hostOps0 (W0 m ρ c) (Proc.devRef .tc main_arg7) = _
  after_results

/-! ## After the first pallas_call -/

/-- The hidden features: the first layer, fused spelling, of the argument arrays. -/
abbrev hiddenOf (c : Dev nD) : FVec Ideal S100000x128 .f32 :=
  fused1 (m ((c : Thread nD τ).loc main_arg0))
    (neighbourSum (m ((c : Thread nD τ).loc main_arg0)) (m ((c : Thread nD τ).loc main_arg1)))
    (invDegree (m ((c : Thread nD τ).loc main_arg1)))
    (stacked1 (m ((c : Thread nD τ).loc main_arg2)) (m ((c : Thread nD τ).loc main_arg4)))
    (m ((c : Thread nD τ).loc main_arg3))

/-- The first call leaves the hidden features in its output array. -/
theorem after_first_hidden (c : Dev nD) : W2 m ρ c (Proc.devRef .tc main_v24) = hiddenOf m c := by
  refine (W2_arr m ρ c 5).trans ?_
  rw [Layer1.final (V1 m ρ) c, first_arg0, first_sum, first_scale, first_weights, first_arg3]

/-- It leaves the index rows, the scale column and the later arguments as it found them: the rows and the arguments are
    not among its arrays, the scale column is one of its inputs. -/
theorem after_first_src (c : Dev nD) :
    W2 m ρ c (Proc.devRef .tc main_v1) = srcWords (m ((c : Thread nD τ).loc main_arg1)) :=
  (W2_of_ne m ρ c main_v1 (by decide)).trans (first_src m ρ c)
theorem after_first_dst (c : Dev nD) :
    W2 m ρ c (Proc.devRef .tc main_v3) = dstWords (m ((c : Thread nD τ).loc main_arg1)) :=
  (W2_of_ne m ρ c main_v3 (by decide)).trans (first_dst m ρ c)
theorem after_first_scale (c : Dev nD) :
    W2 m ρ c (Proc.devRef .tc main_v11) = invDegree (m ((c : Thread nD τ).loc main_arg1)) :=
  (W2_arr m ρ c 2).trans ((((dat0 (V1 m ρ) c).arrAt_in 2 rfl _).trans (A_eq0 (V1 m ρ) c 2)).trans (first_scale m ρ c))
theorem after_first_arg5 (c : Dev nD) : W2 m ρ c (Proc.devRef .tc main_arg5) = m ((c : Thread nD τ).loc main_arg5) :=
  (W2_of_ne m ρ c main_arg5 (by decide)).trans (first_arg5 m ρ c)
theorem after_first_arg6 (c : Dev nD) : W2 m ρ c (Proc.devRef .tc main_arg6) = m ((c : Thread nD τ).loc main_arg6) :=
  (W2_of_ne m ρ c main_arg6 (by decide)).trans (first_arg6 m ρ c)
theorem after_first_arg7 (c : Dev nD) : W2 m ρ c (Proc.devRef .tc main_arg7) = m ((c : Thread nD τ).loc main_arg7) :=
  (W2_of_ne m ρ c main_arg7 (by decide)).trans (first_arg7 m ρ c)

/-! ## After the second stretch of host operations -/

theorem second_hidden (c : Dev nD) : V3 m ρ c main_v24 = hiddenOf m c := by
  show StableHlo.after hostOps1 (W2 m ρ c) (Proc.devRef .tc main_v24) = _
  after_results
  exact after_first_hidden m ρ c

/-- The neighbour sums of the hidden features, along the same edges. -/
theorem second_sum (c : Dev nD) :
    V3 m ρ c main_v34 = neighbourSum (hiddenOf m c) (m ((c : Thread nD τ).loc main_arg1)) := by
  show StableHlo.after hostOps1 (W2 m ρ c) (Proc.devRef .tc main_v34) = _
  after_results
  rw [after_first_src, after_first_dst, after_first_hidden]
  rfl

theorem second_scale (c : Dev nD) : V3 m ρ c main_v11 = invDegree (m ((c : Thread nD τ).loc main_arg1)) := by
  show StableHlo.after hostOps1 (W2 m ρ c) (Proc.devRef .tc main_v11) = _
  after_results
  exact after_first_scale m ρ c

/-- The second layer's weights, stacked. -/
theorem second_weights (c : Dev nD) :
    V3 m ρ c main_v36 = stacked2 (m ((c : Thread nD τ).loc main_arg5)) (m ((c : Thread nD τ).loc main_arg7)) := by
  show StableHlo.after hostOps1 (W2 m ρ c) (Proc.devRef .tc main_v36) = _
  after_results
  rw [after_first_arg5, after_first_arg7]
  rfl

theorem second_bias (c : Dev nD) : V3 m ρ c main_arg6 = m ((c : Thread nD τ).loc main_arg6) := by
  show StableHlo.after hostOps1 (W2 m ρ c) (Proc.devRef .tc main_arg6) = _
  after_results
  exact after_first_arg6 m ρ c

/-! ## After the second pallas_call -/

/-- The result buffer at the last boundary: the second layer, fused spelling, of the hidden features. -/
theorem result (c : Dev nD) :
    W4 m ρ c (Proc.devRef .tc main_v37)
      = fused2 (hiddenOf m c) (neighbourSum (hiddenOf m c) (m ((c : Thread nD τ).loc main_arg1)))
          (invDegree (m ((c : Thread nD τ).loc main_arg1)))
          (stacked2 (m ((c : Thread nD τ).loc main_arg5)) (m ((c : Thread nD τ).loc main_arg7)))
          (m ((c : Thread nD τ).loc main_arg6)) := by
  refine (W4_arr m ρ c 5).trans ?_
  rw [Layer2.final (V3 m ρ) c, second_hidden, second_sum, second_scale, second_weights, second_bias]

end Cert.KernelIdeal.Through

end
-- ==== Proof.Algebra.lean ====
/-
  The fused spelling of a layer equals the plain one, on every extended real.
  Three facts join them. A node's scale is 1 / d with d = max(degree, 1) ≥ 1, so d ≠ 0 and a · (1 / d) = a / d.
  A sum over 256 terms is the sum of its first 128 and its last 128, and the stacked matrix's first 128 rows are
  W_l, its last 128 W_r. Addition of extended reals is commutative and associative, so the bias may be added
  before or after the second product. None of these needs a finite operand.
-/
import proofs.«424404_j19155554140466_3_alg».proof.Proof.Spec
import Idealize.ShloMosaic.Lib.Pipeline.Value
import Idealize.ShloMosaic.Lib.ValueIdx
import Idealize.ShloMosaic.PureOps.Ideal.Laws
import Idealize.ShloMosaic.Lib.IdealHost

noncomputable section

namespace Cert.Sage

open Idealize.ShloMosaic Idealize.ShloMosaic.TcCoe Idealize.ShloMosaic.ValueIdx Idealize.SL.Sem Cert.KernelIdeal Cert.KernelIdeal.Gen

/-! ## Scalars -/

/-- A maximum with 1 is at least 1, so it is not 0. -/
theorem max_one_ne_zero (s : EReal) : max s 1 ≠ 0 := by
  intro h0
  have h : (1 : EReal) ≤ max s 1 := le_max_right _ _
  rw [h0] at h
  exact absurd h (not_le.2 zero_lt_one)

/-! ## One row against one stacked column, with no shapes in sight -/

/-- A row of 256 entries whose first 128 are `a k · s` with `s = 1 / d`, `d ≠ 0`, and whose last 128 are `y`, against a
    column whose first 128 entries are `wl` and last 128 `wr`, plus a bias: the sum splits into its two halves, the
    first half's terms are `(a k / d) · wl k`, the second's `y k · wr k`, and the bias moves between the halves. -/
theorem row_law (row wc : Fin 256 → EReal) (a y wl wr : Fin 128 → EReal) (s d bias : EReal) (hd : d ≠ 0)
    (hs : s = Ideal.div 1 d)
    (hrow : ∀ k : Fin 256, row k = if h : k.val < 128 then a ⟨k.val, h⟩ * s
      else y ⟨k.val - 128, by have := k.isLt; omega⟩)
    (hwc : ∀ k : Fin 256, wc k = if h : k.val < 128 then wl ⟨k.val, h⟩
      else wr ⟨k.val - 128, by have := k.isLt; omega⟩) :
    (∑ k : Fin 256, row k * wc k) + bias
      = ((∑ k : Fin 128, Ideal.div (a k) d * wl k) + bias) + ∑ k : Fin 128, y k * wr k := by
  have h256 : (∑ k : Fin 256, row k * wc k)
      = (∑ k : Fin 128, row (Fin.castAdd 128 k) * wc (Fin.castAdd 128 k))
        + ∑ k : Fin 128, row (Fin.natAdd 128 k) * wc (Fin.natAdd 128 k) :=
    Fin.sum_univ_add (fun k : Fin (128 + 128) => row k * wc k)
  have hlo : ∀ k : Fin 128, row (Fin.castAdd 128 k) * wc (Fin.castAdd 128 k) = Ideal.div (a k) d * wl k := by
    intro k
    have hk : (Fin.castAdd 128 k).val < 128 := by rw [Fin.coe_castAdd]; exact k.isLt
    rw [hrow, hwc, dif_pos hk, dif_pos hk, hs, Ideal.mul_one_div hd]
    rfl
  have hhi : ∀ k : Fin 128, row (Fin.natAdd 128 k) * wc (Fin.natAdd 128 k) = y k * wr k := by
    intro k
    have hv : (Fin.natAdd 128 k).val = 128 + k.val := Fin.coe_natAdd 128 k
    have hk : ¬ (Fin.natAdd 128 k).val < 128 := by omega
    have he : (⟨(Fin.natAdd 128 k).val - 128, by have := k.isLt; omega⟩ : Fin 128) = k :=
      Fin.ext (by show (Fin.natAdd 128 k).val - 128 = k.val; omega)
    rw [hrow, hwc, dif_neg hk, dif_neg hk, he]
  rw [h256, Finset.sum_congr rfl (fun k _ => hlo k), Finset.sum_congr rfl (fun k _ => hhi k)]
  exact add_right_comm _ _ _

/-! ## The degree and its reciprocal at a node -/

/-- The splat of the word 0x3F800000 (sign 0, exponent field 127, fraction 0: the number 1) over the nodes is 1 at
    every node. -/
theorem one_splat_apply (i : S100000x1.Idx) :
    broadcastInDim S100000x1 ![] bcast_S_S100000x1 (constant (F := Ideal) S_ .f32 0x3F800000#32) i = 1 := by
  rw [broadcastInDim_scalar_apply, constant_apply]
  exact Ideal.ofBits_one_f32

/-- A node's clamped degree is a maximum with 1, so it is not 0. The count itself plays no part. -/
theorem degree1_ne_zero (E : IVec S2x1600000 32) (i : S100000x1.Idx) : degree1 E i ≠ 0 := by
  unfold degree1
  rw [maximumf_apply, one_splat_apply]
  exact max_one_ne_zero _

/-- A node's scale is 1 divided by its clamped degree. -/
theorem invDegree_apply (E : IVec S2x1600000 32) (i : S100000x1.Idx) :
    invDegree E i = Ideal.div 1 (degree1 E i) := by
  unfold invDegree
  rw [hostDivf_apply, one_splat_apply]

/-! ## The stacked matrix's rows -/

/-- Two matrices of 128 rows, one over the other: a row below 128 is the first matrix's row. -/
theorem stack_lo {n : Nat} (Wl Wr : (⟨2, ![128, n]⟩ : Shape).Idx → EReal)
    (h : Shape.Concatenates [(⟨2, ![128, n]⟩ : Shape), ⟨2, ![128, n]⟩] ⟨2, ![256, n]⟩ 0)
    (k : Fin 256) (j : Fin n) (hk : k.val < 128) :
    concatenate (⟨2, ![256, n]⟩ : Shape) 0 [⟨⟨2, ![128, n]⟩, Wl⟩, ⟨⟨2, ![128, n]⟩, Wr⟩] h (ix2 k j)
      = Wl (ix2 ⟨k.val, hk⟩ j) :=
  concatenate_pair_apply_left _ Wl Wr h (ix2 k j) rfl (ix2 ⟨k.val, hk⟩ j)
    (fun b => match b with | ⟨0, _⟩ => rfl | ⟨1, _⟩ => rfl)

/-- A row from 128 on is the second matrix's row, 128 less. -/
theorem stack_hi {n : Nat} (Wl Wr : (⟨2, ![128, n]⟩ : Shape).Idx → EReal)
    (h : Shape.Concatenates [(⟨2, ![128, n]⟩ : Shape), ⟨2, ![128, n]⟩] ⟨2, ![256, n]⟩ 0)
    (k : Fin 256) (j : Fin n) (hk : ¬ k.val < 128) :
    concatenate (⟨2, ![256, n]⟩ : Shape) 0 [⟨⟨2, ![128, n]⟩, Wl⟩, ⟨⟨2, ![128, n]⟩, Wr⟩] h (ix2 k j)
      = Wr (ix2 ⟨k.val - 128, by have := k.isLt; omega⟩ j) :=
  concatenate_pair_apply_right _ Wl Wr h (ix2 k j) rfl rfl (ix2 ⟨k.val - 128, by have := k.isLt; omega⟩ j)
    (fun b hb => match b, hb with | ⟨0, _⟩, hb => absurd rfl hb | ⟨1, _⟩, _ => rfl)
    (by show k.val - 128 + 128 = k.val; omega)

/-- The first layer's stacked matrix, row by row. -/
theorem stacked1_apply (Wl Wr : FVec Ideal S128x128 .f32) (k : Fin 256) (j : Fin 128) :
    stacked1 Wl Wr (ix2 k j) = if h : k.val < 128 then Wl (ix2 ⟨k.val, h⟩ j)
      else Wr (ix2 ⟨k.val - 128, by have := k.isLt; omega⟩ j) := by
  unfold stacked1
  rw [truncf_apply]
  by_cases hk : k.val < 128
  · rw [dif_pos hk]; exact stack_lo Wl Wr _ k j hk
  · rw [dif_neg hk]; exact stack_hi Wl Wr _ k j hk

/-- The second layer's stacked matrix, row by row. -/
theorem stacked2_apply (Wl Wr : FVec Ideal S128x64 .f32) (k : Fin 256) (j : Fin 64) :
    stacked2 Wl Wr (ix2 k j) = if h : k.val < 128 then Wl (ix2 ⟨k.val, h⟩ j)
      else Wr (ix2 ⟨k.val - 128, by have := k.isLt; omega⟩ j) := by
  unfold stacked2
  rw [truncf_apply]
  by_cases hk : k.val < 128
  · rw [dif_pos hk]; exact stack_lo Wl Wr _ k j hk
  · rw [dif_neg hk]; exact stack_hi Wl Wr _ k j hk

/-! ## The two layers -/

/-- The first layer: fused spelling over the reciprocal degree and the stacked weights = plain spelling. -/
theorem fused1_eq (Y : FVec Ideal S100000x128 .f32) (E : IVec S2x1600000 32) (Wl : FVec Ideal S128x128 .f32)
    (b : FVec Ideal S128 .f32) (Wr : FVec Ideal S128x128 .f32) :
    fused1 Y (neighbourSum Y E) (invDegree E) (stacked1 Wl Wr) b = conv1 Y E Wl b Wr := by
  funext i
  obtain ⟨r, j, rfl⟩ : ∃ (r : Fin 100000) (j : Fin 128), i = ix2 r j := ⟨i 0, i 1, eq_ix2 i⟩
  unfold fused1 conv1
  refine congrArg (max · 0) ?_
  exact row_law (fun k => fusedRow Y (neighbourSum Y E) (invDegree E) r k) (fun k => stacked1 Wl Wr (ix2 k j))
    (fun k => neighbourSum Y E (ix2 r k)) (fun k => Y (ix2 r k)) (fun k => Wl (ix2 k j)) (fun k => Wr (ix2 k j))
    (invDegree E (ix2 r (0 : Fin 1))) (degree1 E (ix2 r (0 : Fin 1))) (b (ix1 j))
    (degree1_ne_zero E _) (invDegree_apply E _) (fun k => rfl) (fun k => stacked1_apply Wl Wr k j)

/-- The second layer: fused spelling over the reciprocal degree and the stacked weights = plain spelling. -/
theorem fused2_eq (Y : FVec Ideal S100000x128 .f32) (E : IVec S2x1600000 32) (Wl : FVec Ideal S128x64 .f32)
    (b : FVec Ideal S64 .f32) (Wr : FVec Ideal S128x64 .f32) :
    fused2 Y (neighbourSum Y E) (invDegree E) (stacked2 Wl Wr) b = conv2 Y E Wl b Wr := by
  funext i
  obtain ⟨r, j, rfl⟩ : ∃ (r : Fin 100000) (j : Fin 64), i = ix2 r j := ⟨i 0, i 1, eq_ix2 i⟩
  unfold fused2 conv2
  exact row_law (fun k => fusedRow Y (neighbourSum Y E) (invDegree E) r k) (fun k => stacked2 Wl Wr (ix2 k j))
    (fun k => neighbourSum Y E (ix2 r k)) (fun k => Y (ix2 r k)) (fun k => Wl (ix2 k j)) (fun k => Wr (ix2 k j))
    (invDegree E (ix2 r (0 : Fin 1))) (degree1 E (ix2 r (0 : Fin 1))) (b (ix1 j))
    (degree1_ne_zero E _) (invDegree_apply E _) (fun k => rfl) (fun k => stacked2_apply Wl Wr k j)

end Cert.Sage

end
-- ==== Proof.RefValue.lean ====
/-
  The reference program's result, read one operation at a time: it is the second layer (plain spelling) of the
  first layer (plain spelling) of the argument arrays.
-/
import proofs.«424404_j19155554140466_3_alg».proof.Proof.Gen.ReferenceIdeal.Run
import proofs.«424404_j19155554140466_3_alg».proof.Proof.Gen.ReferenceIdeal.Read
import proofs.«424404_j19155554140466_3_alg».proof.Proof.Spec
import Idealize.ShloMosaic.Lib.ValueIdx
import Idealize.ShloMosaic.PureOps.Ideal.Laws

noncomputable section

namespace Cert.ReferenceIdeal.RefValue

open Idealize.ShloMosaic Idealize.ShloMosaic.TcCoe Idealize.ShloMosaic.ValueIdx Idealize.SL.Sem Cert.Sage

/-! ## The aggregation stages are the specification's, name for name

Both programs spell the edge columns, the row gather and the two scatter-additions with the same operations on the
same shape literals, so each stage below equals its counterpart by unfolding names alone; nothing is evaluated along
the edge axis. -/

open Cert.ReferenceIdeal in
/-- The first layer's scatter-addition of the gathered rows is the neighbour sum of the node features. -/
theorem agg1 (x0 : (⟨S100000x128, .f32⟩ : BufTy).Contents (Elt Ideal)) (x1 : (⟨S2x1600000, .i32⟩ : BufTy).Contents (Elt Ideal)) :
    Read.val_main_v13 (F := Ideal) x0 x1 = neighbourSum x0 x1 := rfl

open Cert.ReferenceIdeal in
/-- The second layer's scatter-addition is the neighbour sum of the first layer's output. -/
theorem agg2 (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) :
    Read.val_main_v38 (F := Ideal) x0 x1 x2 x3 x4 = neighbourSum (Read.val_main_v28 (F := Ideal) x0 x1 x2 x3 x4) x1 := rfl

open Cert.ReferenceIdeal in
/-- The first layer's clamped in-degree is `degree1`. -/
theorem deg1 (x1 : (⟨S2x1600000, .i32⟩ : BufTy).Contents (Elt Ideal)) :
    Read.val_main_v19 (F := Ideal) x1 = degree1 x1 := rfl

open Cert.ReferenceIdeal in
/-- The second layer recomputes the same clamped in-degree. -/
theorem deg2 (x1 : (⟨S2x1600000, .i32⟩ : BufTy).Contents (Elt Ideal)) :
    Read.val_main_v44 (F := Ideal) x1 = degree1 x1 := rfl

/-! ## The index maps of the products and broadcasts, at explicit coordinates -/

open Cert.ReferenceIdeal in
/-- Term `k` of output `(r, j)` of the first layer's aggregate product reads the left operand at `(r, k)`. -/
theorem lidx22 (r : Fin 100000) (j k : Fin 128) : Read.lidx_main_v22 (ix2 r j) k = ix2 r k :=
  funext fun a => Fin.ext (by match a with | ⟨0, _⟩ => rfl | ⟨1, _⟩ => rfl)

open Cert.ReferenceIdeal in
/-- … and the right operand at `(k, j)`. -/
theorem ridx22 (r : Fin 100000) (j k : Fin 128) : Read.ridx_main_v22 (ix2 r j) k = ix2 k j :=
  funext fun a => Fin.ext (by match a with | ⟨0, _⟩ => rfl | ⟨1, _⟩ => rfl)

open Cert.ReferenceIdeal in
/-- The degree column broadcast along a row is read at column 0 of the same row. -/
theorem idx20 (r : Fin 100000) (k : Fin 128) : Read.idx_main_v20 (ix2 r k) = ix2 r (0 : Fin 1) :=
  funext fun a => Fin.ext (by match a with | ⟨0, _⟩ => rfl | ⟨1, _⟩ => rfl)

open Cert.ReferenceIdeal in
/-- The bias broadcast over the rows is read at the output's column. -/
theorem idx2324 (r : Fin 100000) (j : Fin 128) : Read.idx_main_v23 (Read.idx_main_v24 (ix2 r j)) = ix1 j :=
  funext fun a => Fin.ext (by match a with | ⟨0, _⟩ => rfl)

open Cert.ReferenceIdeal in
/-- The first layer's own-feature product: left operand at `(r, k)`. -/
theorem lidx26 (r : Fin 100000) (j k : Fin 128) : Read.lidx_main_v26 (ix2 r j) k = ix2 r k :=
  funext fun a => Fin.ext (by match a with | ⟨0, _⟩ => rfl | ⟨1, _⟩ => rfl)

open Cert.ReferenceIdeal in
/-- … right operand at `(k, j)`. -/
theorem ridx26 (r : Fin 100000) (j k : Fin 128) : Read.ridx_main_v26 (ix2 r j) k = ix2 k j :=
  funext fun a => Fin.ext (by match a with | ⟨0, _⟩ => rfl | ⟨1, _⟩ => rfl)

open Cert.ReferenceIdeal in
/-- The second layer's aggregate product (64 output columns): left operand at `(r, k)`. -/
theorem lidx47 (r : Fin 100000) (j : Fin 64) (k : Fin 128) : Read.lidx_main_v47 (ix2 r j) k = ix2 r k :=
  funext fun a => Fin.ext (by match a with | ⟨0, _⟩ => rfl | ⟨1, _⟩ => rfl)

open Cert.ReferenceIdeal in
/-- … right operand at `(k, j)`. -/
theorem ridx47 (r : Fin 100000) (j : Fin 64) (k : Fin 128) : Read.ridx_main_v47 (ix2 r j) k = ix2 k j :=
  funext fun a => Fin.ext (by match a with | ⟨0, _⟩ => rfl | ⟨1, _⟩ => rfl)

open Cert.ReferenceIdeal in
/-- The second layer's own-feature product: left operand at `(r, k)`. -/
theorem lidx51 (r : Fin 100000) (j : Fin 64) (k : Fin 128) : Read.lidx_main_v51 (ix2 r j) k = ix2 r k :=
  funext fun a => Fin.ext (by match a with | ⟨0, _⟩ => rfl | ⟨1, _⟩ => rfl)

open Cert.ReferenceIdeal in
/-- … right operand at `(k, j)`. -/
theorem ridx51 (r : Fin 100000) (j : Fin 64) (k : Fin 128) : Read.ridx_main_v51 (ix2 r j) k = ix2 k j :=
  funext fun a => Fin.ext (by match a with | ⟨0, _⟩ => rfl | ⟨1, _⟩ => rfl)

open Cert.ReferenceIdeal in
/-- The second layer's degree column broadcast along a row is read at column 0 of the same row. -/
theorem idx45 (r : Fin 100000) (k : Fin 128) : Read.idx_main_v45 (ix2 r k) = ix2 r (0 : Fin 1) :=
  funext fun a => Fin.ext (by match a with | ⟨0, _⟩ => rfl | ⟨1, _⟩ => rfl)

open Cert.ReferenceIdeal in
/-- The second bias broadcast over the rows is read at the output's column. -/
theorem idx4849 (r : Fin 100000) (j : Fin 64) : Read.idx_main_v48 (Read.idx_main_v49 (ix2 r j)) = ix1 j :=
  funext fun a => Fin.ext (by match a with | ⟨0, _⟩ => rfl)

/-! ## The first layer -/

open Cert.ReferenceIdeal in
/-- The first layer's quotient at `(r, k)` is the mean: the neighbour sum over the clamped degree of row `r`. -/
theorem mean1 (x0 : (⟨S100000x128, .f32⟩ : BufTy).Contents (Elt Ideal)) (x1 : (⟨S2x1600000, .i32⟩ : BufTy).Contents (Elt Ideal))
    (r : Fin 100000) (k : Fin 128) :
    Read.val_main_v21 (F := Ideal) x0 x1 (ix2 r k) = meanAt x0 x1 r k := by
  rw [Read.val_main_v21_apply, Read.val_main_v20_apply, idx20, agg1, deg1, Ideal.hostDivf_def]
  rfl

open Cert.ReferenceIdeal in
/-- The clamped stage is the first layer, plain spelling: entry `(r, j)` is
    `max ((∑ k, mean r k · W_l k j) + b j + ∑ k, Y r k · W_r k j) 0`, the clamp's splat being the real 0. -/
theorem hidden (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) :
    Read.val_main_v28 (F := Ideal) x0 x1 x2 x3 x4 = conv1 x0 x1 x2 x3 x4 := by
  funext i
  obtain ⟨r, j, rfl⟩ : ∃ (r : Fin 100000) (j : Fin 128), i = ix2 r j := ⟨i 0, i 1, eq_ix2 i⟩
  rw [Read.val_main_v28_apply, Read.val_main_v27_apply, Read.val_main_v25_apply, Read.val_main_v22_apply,
    Read.val_main_v26_apply, Read.val_main_v24_apply, Read.val_main_v23_apply, Read.val_main_call0_v0_apply,
    Read.val_main_call0_cst_apply, idx2324]
  have e1 : ∀ k : Fin 128, Read.val_main_v21 (F := Ideal) x0 x1 (Read.lidx_main_v22 (ix2 r j) k) * x2 (Read.ridx_main_v22 (ix2 r j) k)
      = meanAt x0 x1 r k * x2 (ix2 k j) := fun k => by rw [lidx22, ridx22, mean1]
  have e2 : ∀ k : Fin 128, x0 (Read.lidx_main_v26 (ix2 r j) k) * x4 (Read.ridx_main_v26 (ix2 r j) k)
      = x0 (ix2 r k) * x4 (ix2 k j) := fun k => by rw [lidx26, ridx26]
  rw [Finset.sum_congr rfl (fun k _ => e1 k), Finset.sum_congr rfl (fun k _ => e2 k), Ideal.maximumf_def,
    Ideal.addf_def, Ideal.addf_def, Ideal.ofBits_def, Ideal.ofBits_zero_f32]
  rfl

/-! ## The second layer -/

open Cert.ReferenceIdeal in
/-- The second layer's quotient at `(r, k)` is the mean of the first layer's output. -/
theorem mean2 (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (r : Fin 100000) (k : Fin 128) :
    Read.val_main_v46 (F := Ideal) x0 x1 x2 x3 x4 (ix2 r k) = meanAt (conv1 x0 x1 x2 x3 x4) x1 r k := by
  rw [Read.val_main_v46_apply, Read.val_main_v45_apply, idx45, agg2, deg2, hidden, Ideal.hostDivf_def]
  rfl

open Cert.ReferenceIdeal in
/-- The reference's last stage, as a function of the eight argument arrays, is the two layers composed. -/
theorem result_eq (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128x64, .f32⟩ : BufTy).Contents (Elt Ideal))
    (x6 : (⟨S64, .f32⟩ : BufTy).Contents (Elt Ideal)) (x7 : (⟨S128x64, .f32⟩ : BufTy).Contents (Elt Ideal)) :
    Cert.ReferenceIdeal.Read.val_main_v52 (F := Ideal) x0 x1 x2 x3 x4 x5 x6 x7
      = conv2 (conv1 x0 x1 x2 x3 x4) x1 x5 x6 x7 := by
  funext i
  obtain ⟨r, j, rfl⟩ : ∃ (r : Fin 100000) (j : Fin 64), i = ix2 r j := ⟨i 0, i 1, eq_ix2 i⟩
  rw [Read.val_main_v52_apply, Read.val_main_v50_apply, Read.val_main_v47_apply, Read.val_main_v51_apply,
    Read.val_main_v49_apply, Read.val_main_v48_apply, idx4849, hidden]
  have e1 : ∀ k : Fin 128, Read.val_main_v46 (F := Ideal) x0 x1 x2 x3 x4 (Read.lidx_main_v47 (ix2 r j) k) * x5 (Read.ridx_main_v47 (ix2 r j) k)
      = meanAt (conv1 x0 x1 x2 x3 x4) x1 r k * x5 (ix2 k j) := fun k => by rw [lidx47, ridx47, mean2]
  have e2 : ∀ k : Fin 128, conv1 x0 x1 x2 x3 x4 (Read.lidx_main_v51 (ix2 r j) k) * x7 (Read.ridx_main_v51 (ix2 r j) k)
      = conv1 x0 x1 x2 x3 x4 (ix2 r k) * x7 (ix2 k j) := fun k => by rw [lidx51, ridx51]
  rw [Finset.sum_congr rfl (fun k _ => e1 k), Finset.sum_congr rfl (fun k _ => e2 k), Ideal.addf_def, Ideal.addf_def]
  rfl

end Cert.ReferenceIdeal.RefValue

end
-- ==== Proof.lean ====
/-
  The certificate of a two-layer graph convolution (mean aggregation over an edge list, two weight matrices and a
  bias per layer, a clamp at 0 between the layers) against its plain reference, over the extended reals.

  Both programs gather and sum feature rows along the SAME edge list with the same operations, so that part is carried
  as one opaque function of the features and the edge list. What differs is the arithmetic around it. The kernel
  multiplies a neighbour sum by the reciprocal of the in-degree where the reference divides by the in-degree; it lays
  the mean beside the node's own features and takes one product of 256 terms with the two weight matrices stacked,
  where the reference takes two products of 128 terms; and it adds the bias after both products, the reference
  between them. The in-degree is clamped below at 1, so it is never 0 and a · (1/d) = a / d on every extended
  real; a sum over 256 terms splits into its halves; addition is commutative and associative. No operand needs to be
  finite, so the precondition is never opened.

  The kernel's value: each pallas_call's 25 blocks of 4000 nodes tile its output array (`Layer1`, `Layer2`), and the
  run's boundary contents thread the first layer's output into the second's gather (`Through`). The reference's value
  is read one operation at a time (`RefValue`). `Algebra` joins the two spellings of a layer.
-/
import proofs.«424404_j19155554140466_3_alg».proof.Defs
import proofs.«424404_j19155554140466_3_alg».proof.Proof.Gen.Kernel
import proofs.«424404_j19155554140466_3_alg».proof.Proof.Gen.Kernel.Skeleton
import proofs.«424404_j19155554140466_3_alg».proof.Proof.Gen.Kernel.Launch
import proofs.«424404_j19155554140466_3_alg».proof.Proof.Gen.Kernel.Points
import proofs.«424404_j19155554140466_3_alg».proof.Proof.Gen.Kernel.Frame
import proofs.«424404_j19155554140466_3_alg».proof.Proof.Gen.KernelIdeal
import proofs.«424404_j19155554140466_3_alg».proof.Proof.Gen.KernelIdeal.Skeleton
import proofs.«424404_j19155554140466_3_alg».proof.Proof.Gen.KernelIdeal.Launch
import proofs.«424404_j19155554140466_3_alg».proof.Proof.Gen.KernelIdeal.Points
import proofs.«424404_j19155554140466_3_alg».proof.Proof.Gen.KernelIdeal.Frame
import proofs.«424404_j19155554140466_3_alg».proof.Proof.Gen.ReferenceIdeal
import proofs.«424404_j19155554140466_3_alg».proof.Proof.Gen.ReferenceIdeal.Run
import proofs.«424404_j19155554140466_3_alg».proof.Proof.Gen.ReferenceIdeal.Read
import proofs.«424404_j19155554140466_3_alg».proof.Proof.Gen.Pre_finite_inputs
import proofs.«424404_j19155554140466_3_alg».proof.Proof.Spec
import proofs.«424404_j19155554140466_3_alg».proof.Proof.KRun
import proofs.«424404_j19155554140466_3_alg».proof.Proof.Through
import proofs.«424404_j19155554140466_3_alg».proof.Proof.Algebra
import proofs.«424404_j19155554140466_3_alg».proof.Proof.RefValue
import Idealize.ShloMosaic.Adequacy
import Idealize.ShloMosaic.Init

noncomputable section

namespace Cert.Proof

open Idealize.ShloMosaic Idealize.SL.Sem Cert.Sage

/-- The word-level kernel runs and keeps its arguments: both of its pallas_calls are whole-block bodies. -/
theorem frame_kernel : Cert.frame_Kernel := fun m ρ _ => Cert.Kernel.Gen.frame m ρ

/-- The same of the idealized kernel. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the second layer of the first layer of the arguments, in the plain spelling: the kernel's
    fused spelling of each layer equals it, and the reference's stages are it. -/
theorem algebraic : Cert.algebraic_KernelIdeal_ReferenceIdeal := by
  intro m ρ m' ρ' _ hagree
  refine ⟨fun c => conv2
      (conv1 (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4)))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · refine (θ_run Cert.KernelIdeal.defs _ _).mono (fun r h c => ⟨(h c).1.trans ?_, (h c).2⟩)
      (Cert.KernelIdeal.Gen.run_result (F := Ideal) m ρ)
    rw [Cert.KernelIdeal.Through.result m ρ c]
    unfold Cert.KernelIdeal.Through.hiddenOf
    rw [fused1_eq, fused2_eq]
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7⟩ := hagree c
    rw [Cert.ReferenceIdeal.Read.val_main_v52_eq, Cert.ReferenceIdeal.RefValue.result_eq, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
